-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S2x128 .f32) (main_arg6 : FVec F S128x64 .f32) (main_arg7 : FVec F S64 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S2x128 .f32) (main_arg6 : FVec F S128x64 .f32) (main_arg7 : FVec F S64 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x128 : Shape := ⟨2, ![2, 128]⟩
abbrev S128x64 : Shape := ⟨2, ![128, 64]⟩
abbrev S64 : Shape := ⟨1, ![64]⟩
abbrev S_ : Shape := ⟨0, ![]⟩
abbrev S128x1 : Shape := ⟨2, ![128, 1]⟩
abbrev S1x128 : Shape := ⟨2, ![1, 128]⟩
abbrev S1x64 : Shape := ⟨2, ![1, 64]⟩
abbrev S2000x128 : Shape := ⟨2, ![2000, 128]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩
abbrev S10000x64 : Shape := ⟨2, ![10000, 64]⟩
abbrev S1000x64 : Shape := ⟨2, ![1000, 64]⟩
abbrev S1000 : Shape := ⟨1, ![1000]⟩
abbrev S1000x1 : Shape := ⟨2, ![1000, 1]⟩

abbrev nBuf : Space → Nat
  | .hbm => 39
  | .vmem => 50
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S2x128, .f32⟩
  | .hbm, ⟨6, _⟩ => ⟨S128x64, .f32⟩
  | .hbm, ⟨7, _⟩ => ⟨S64, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128x1, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128x1, .f32⟩
  | .hbm, ⟨19, _⟩ => ⟨S128x64, .f32⟩
  | .hbm, ⟨20, _⟩ => ⟨S128x64, .f32⟩
  | .hbm, ⟨21, _⟩ => ⟨S1x128, .f32⟩
  | .hbm, ⟨22, _⟩ => ⟨S1x64, .f32⟩
  | .hbm, ⟨23, _⟩ => ⟨S10000x128, .bf16⟩
  | .hbm, ⟨24, _⟩ => ⟨S10000x128, .f32⟩
  | .hbm, ⟨25, _⟩ => ⟨S10000x10000, .bf16⟩
  | .hbm, ⟨26, _⟩ => ⟨S10000x128, .f32⟩
  | .hbm, ⟨27, _⟩ => ⟨S10000x128, .bf16⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S10000x128, .f32⟩
  | .hbm, ⟨32, _⟩ => ⟨S10000x128, .bf16⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S10000x64, .bf16⟩
  | .hbm, ⟨37, _⟩ => ⟨S10000x64, .f32⟩
  | .hbm, ⟨38, _⟩ => ⟨S10000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S400x10000, .f32⟩
  | .local _ .vmem, ⟨10, _⟩ => ⟨S400x10000, .f32⟩
  | .local _ .vmem, ⟨11, _⟩ => ⟨S10000x128, .bf16⟩
  | .local _ .vmem, ⟨12, _⟩ => ⟨S400x128, .f32⟩
  | .local _ .vmem, ⟨13, _⟩ => ⟨S400x128, .f32⟩
  | .local _ .vmem, ⟨14, _⟩ => ⟨S400x10000, .bf16⟩
  | .local _ .vmem, ⟨15, _⟩ => ⟨S400x10000, .bf16⟩
  | .local _ .vmem, ⟨16, _⟩ => ⟨S400x128, .f32⟩
  | .local _ .vmem, ⟨17, _⟩ => ⟨S400x128, .f32⟩
  | .local _ .vmem, ⟨18, _⟩ => ⟨S400x128, .bf16⟩
  | .local _ .vmem, ⟨19, _⟩ => ⟨S400x128, .bf16⟩
  | .local _ .vmem, ⟨20, _⟩ => ⟨S1000x10000, .bf16⟩
  | .local _ .vmem, ⟨21, _⟩ => ⟨S1000x10000, .bf16⟩
  | .local _ .vmem, ⟨22, _⟩ => ⟨S10000x128, .bf16⟩
  | .local _ .vmem, ⟨23, _⟩ => ⟨S1000x128, .f32⟩
  | .local _ .vmem, ⟨24, _⟩ => ⟨S1000x128, .f32⟩
  | .local _ .vmem, ⟨25, _⟩ => ⟨S1x128, .f32⟩
  | .local _ .vmem, ⟨26, _⟩ => ⟨S1000x128, .f32⟩
  | .local _ .vmem, ⟨27, _⟩ => ⟨S1000x128, .f32⟩
  | .local _ .vmem, ⟨28, _⟩ => ⟨S1000x128, .bf16⟩
  | .local _ .vmem, ⟨29, _⟩ => ⟨S1000x128, .bf16⟩
  | .local _ .vmem, ⟨30, _⟩ => ⟨S1000x10000, .bf16⟩
  | .local _ .vmem, ⟨31, _⟩ => ⟨S1000x10000, .bf16⟩
  | .local _ .vmem, ⟨32, _⟩ => ⟨S10000x128, .bf16⟩
  | .local _ .vmem, ⟨33, _⟩ => ⟨S1000x128, .f32⟩
  | .local _ .vmem, ⟨34, _⟩ => ⟨S1000x128, .f32⟩
  | .local _ .vmem, ⟨35, _⟩ => ⟨S1x128, .f32⟩
  | .local _ .vmem, ⟨36, _⟩ => ⟨S128x64, .f32⟩
  | .local _ .vmem, ⟨37, _⟩ => ⟨S128x64, .f32⟩
  | .local _ .vmem, ⟨38, _⟩ => ⟨S1x64, .f32⟩
  | .local _ .vmem, ⟨39, _⟩ => ⟨S1000x64, .bf16⟩
  | .local _ .vmem, ⟨40, _⟩ => ⟨S1000x64, .bf16⟩
  | .local _ .vmem, ⟨41, _⟩ => ⟨S1000x64, .f32⟩
  | .local _ .vmem, ⟨42, _⟩ => ⟨S1000x64, .f32⟩
  | .local _ .vmem, ⟨43, _⟩ => ⟨S1000x10000, .bf16⟩
  | .local _ .vmem, ⟨44, _⟩ => ⟨S1000x10000, .bf16⟩
  | .local _ .vmem, ⟨45, _⟩ => ⟨S10000x64, .bf16⟩
  | .local _ .vmem, ⟨46, _⟩ => ⟨S1000x64, .f32⟩
  | .local _ .vmem, ⟨47, _⟩ => ⟨S1000x64, .f32⟩
  | .local _ .vmem, ⟨48, _⟩ => ⟨S1000x64, .f32⟩
  | .local _ .vmem, ⟨49, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg7_1 : Ref sig .tc := ⟨.vmem, 40, rfl⟩
abbrev cc3_stg8_0 : Ref sig .tc := ⟨.vmem, 41, rfl⟩
abbrev cc3_stg8_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem7_1 : DmaSem sig := 40
abbrev cc3_sem8_0 : DmaSem sig := 41
abbrev cc3_sem8_1 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem2_1 : DmaSem sig := 47
abbrev cc4_sem3_0 : DmaSem sig := 48
abbrev cc4_sem3_1 : DmaSem sig := 49

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x64 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S128x1_S128x64_0_1 : S128x1.BroadcastsInDim S128x64 (![0, 1] : Fin 2 → Fin S128x64.rank)
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  packedbf16_S400x128_S400x128_0_0 : (Rect.unit (s := S400x128) ![0, 0] S400x128.size inb_S400x128_S400x128_0_0).PackedRows (EltTy.packing .bf16)
  slices_S2x128_S1x128_0_0 : S2x128.Slices ![0, 0] S1x128
  shapeCasts_S1x128_S128 : S1x128.ShapeCasts S128
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  packedbf16_S1000x128_S1000x128_0_0 : (Rect.unit (s := S1000x128) ![0, 0] S1000x128.size inb_S1000x128_S1000x128_0_0).PackedRows (EltTy.packing .bf16)
  slices_S2x128_S1x128_1_0 : S2x128.Slices ![1, 0] S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1000x64_S1000x64_0_0 : ∀ a, (![0, 0] : Fin 2 → Nat) a + S1000x64.size a ≤ S1000x64.size a
  h_S1000x64 : 0 < S1000x64.numel
  packedbf16_S1000x64_S1000x64_0_0 : (Rect.unit (s := S1000x64) ![0, 0] S1000x64.size inb_S1000x64_S1000x64_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S1000x64_S1000x64 : S1000x64.ShapeCasts S1000x64
  reduces_S1000x64_S1000 : S1000x64.Reduces [1] S1000
  shapeCasts_S1000_S1000x1 : S1000.ShapeCasts S1000x1
  broadcasts_S1000x1_S1000x64 : S1000x1.Broadcasts S1000x64
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  dot_S1000x10000_S10000x128_S1000x128_1_0_0_1_n_n_wf : DotDims.WF S1000x10000 S10000x128 S1000x128 [1] [0] [0] [1] [] []
  dot_S1000x128_S128x64_S1000x64_1_0_0_1_n_n_wf : DotDims.WF S1000x128 S128x64 S1000x64 [1] [0] [0] [1] [] []
  dot_S1000x10000_S10000x64_S1000x64_1_0_0_1_n_n_wf : DotDims.WF S1000x10000 S10000x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .bf16 = 32 ∨ (Rect.block (s := S10000x128) S2000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .bf16 = 32 ∨ (Rect.block (s := S10000x10000) S400x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .bf16 = 32 ∨ (Rect.block (s := S10000x128) S400x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S10000x128.size a
  hwx2_4 : ∀ i : grid2.Coords, EltTy.bits .f32 = 32 ∨ (Rect.block (s := S10000x128) S1000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S10000x128.size a
  hwx2_5 : ∀ i : grid2.Coords, EltTy.bits .bf16 = 32 ∨ (Rect.block (s := S10000x128) S1000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S10000x128.size a
  hwx3_2 : ∀ i : grid3.Coords, EltTy.bits .f32 = 32 ∨ (Rect.block (s := S10000x128) S1000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x64.size a ≤ S10000x64.size a
  hwx3_7 : ∀ i : grid3.Coords, EltTy.bits .bf16 = 32 ∨ (Rect.block (s := S10000x64) S1000x64.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1000x64.size a ≤ S10000x64.size a
  hwx3_8 : ∀ i : grid3.Coords, EltTy.bits .f32 = 32 ∨ (Rect.block (s := S10000x64) S1000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x10000.size a ≤ S10000x10000.size a
  hwx4_0 : ∀ i : grid4.Coords, EltTy.bits .bf16 = 32 ∨ (Rect.block (s := S10000x10000) S1000x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S10000x64.size a
  hwx4_1 : ∀ i : grid4.Coords, EltTy.bits .bf16 = 32 ∨ (Rect.block (s := S10000x64) S10000x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x64.size a ≤ S10000x64.size a
  hwx4_2 : ∀ i : grid4.Coords, EltTy.bits .f32 = 32 ∨ (Rect.block (s := S10000x64) S1000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x64.size a ≤ S10000x64.size a
  hwx4_3 : ∀ i : grid4.Coords, EltTy.bits .f32 = 32 ∨ (Rect.block (s := S10000x64) S1000x64.size (cc4_transform_3 i) (hinb4_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12_1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S400x10000.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13_2) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v13_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13_2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13_1) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17_0) S1000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17_1) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v13_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17_1) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17_0) S1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v21_0) S1000x64.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v21_1) S1000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v13_0) S1000x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21_0) S10000x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21_1) S1000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v22) S1000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x128 : Shape := ⟨2, ![2, 128]⟩
abbrev S128x64 : Shape := ⟨2, ![128, 64]⟩
abbrev S64 : Shape := ⟨1, ![64]⟩
abbrev S_ : Shape := ⟨0, ![]⟩
abbrev S1x128 : Shape := ⟨2, ![1, 128]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S2x128, .f32⟩
  | .hbm, ⟨6, _⟩ => ⟨S128x64, .f32⟩
  | .hbm, ⟨7, _⟩ => ⟨S64, .f32⟩
  | .hbm, ⟨8, _⟩ => ⟨S128, .f32⟩
  | .hbm, ⟨9, _⟩ => ⟨S10000x128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S_, .f32⟩
  | .hbm, ⟨57, _⟩ => ⟨S10000x64, .f32⟩
  | .hbm, ⟨58, _⟩ => ⟨S10000x64, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S10000, .f32⟩
  | .hbm, ⟨63, _⟩ => ⟨S10000, .f32⟩
  | .hbm, ⟨64, _⟩ => ⟨S10000x1, .f32⟩
  | .hbm, ⟨65, _⟩ => ⟨S10000x64, .f32⟩
  | .hbm, ⟨66, _⟩ => ⟨S10000x64, .f32⟩
  | .hbm, ⟨67, _⟩ => ⟨S10000x64, .f32⟩
  | .hbm, ⟨68, _⟩ => ⟨S_, .f32⟩
  | .hbm, ⟨69, _⟩ => ⟨S10000, .f32⟩
  | .hbm, ⟨70, _⟩ => ⟨S10000x1, .f32⟩
  | .hbm, ⟨71, _⟩ => ⟨S10000x1, .f32⟩
  | .hbm, ⟨72, _⟩ => ⟨S10000x64, .f32⟩
  | .hbm, ⟨73, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call3_cst : Ref sig .tc := ⟨.hbm, 56, rfl⟩
abbrev main_call3_v0 : Ref sig .tc := ⟨.hbm, 57, rfl⟩
abbrev main_v39 : Ref sig .tc := ⟨.hbm, 58, rfl⟩
abbrev main_call4_cst : Ref sig .tc := ⟨.hbm, 59, rfl⟩
abbrev main_call4_v0 : Ref sig .tc := ⟨.hbm, 60, rfl⟩
abbrev main_call4_cst_0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_v6 : Ref sig .tc := ⟨.hbm, 67, rfl⟩
abbrev main_call4_cst_1 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_v40 : Ref sig .tc := ⟨.hbm, 73, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x128_S1x128_0_0 : S2x128.Slices ![0, 0] S1x128
  shapeCasts_S1x128_S128 : S1x128.ShapeCasts S128
  slices_S2x128_S1x128_1_0 : S2x128.Slices ![1, 0] S1x128
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.Layers.lean ====
/-
  The graph network's layers as functions of whole arrays over the extended reals, entry by entry.

  An array of shape [R, C] is a function from its index type to the extended reals. `mm l r` is the row-by-column
  product: its entry (p, q) is the sum over k of l(p, k) · r(k, q). A layer subtracts from a term h a product L · u
  (scaled column by column in the hidden layers) and clips at zero.

  Two composites are written out. The KERNEL's composite scales the weight matrices' rows by (d + 1) first and
  multiplies the operator L into the already projected features: relu(x·W1 + b1 − L·(x·((d1+1)·W1))), two hidden
  steps, then U = h·((d2+1)·W2), V = h·W2 + b2 and the logits relu(V − L·U). The REFERENCE's composite applies L to
  the features first: relu((x − (L·x)·(d1+1))·W1 + b1), the same two hidden steps, relu((h − (L·h)·(d2+1))·W2 + b2).
  Both end with the logarithm of the softmax along a row, each in its own grouping: z − (log S + M) against
  (z − M) − log S, where M is the row's maximum and S the row's sum of exp(z − M).

  The words 0, 1 and −∞ are kept as the float words the programs print; nothing here evaluates them.
-/
import Idealize.ShloMosaic.PureOps.Ideal
import Idealize.ShloMosaic.Lib.ValueIdx

noncomputable section

namespace Cert.AdaGnn

open Idealize.ShloMosaic Idealize.ShloMosaic.ValueIdx

/-- An [R, C] array of extended reals. -/
abbrev Mat (R C : ℕ) : Type := (⟨2, ![R, C]⟩ : Shape).Idx → EReal
/-- A [C] array of extended reals. -/
abbrev Vec1 (C : ℕ) : Type := (⟨1, ![C]⟩ : Shape).Idx → EReal

/-- The word of 0. -/
abbrev w0 : EReal := Ideal.ofBits .f32 0x00000000#32
/-- The word of 1. -/
abbrev w1 : EReal := Ideal.ofBits .f32 0x3F800000#32
/-- The word of −∞, from which a row's maximum is folded. -/
abbrev wNegInf : EReal := Ideal.ofBits .f32 0xFF800000#32

/-- The row-by-column product: entry (p, q) is the sum over k of l(p, k) · r(k, q). -/
def mm {R K C : ℕ} (l : Mat R K) (r : Mat K C) : Mat R C :=
  fun i => ∑ k : Fin K, l (ix2 (i 0) k) * r (ix2 k (i 1))

theorem mm_apply {R K C : ℕ} (l : Mat R K) (r : Mat K C) (p : Fin R) (q : Fin C) :
    mm l r (ix2 p q) = ∑ k : Fin K, l (ix2 p k) * r (ix2 k q) := rfl

/-- One layer's epilogue with the product already scaled: clip (v − e) at zero. -/
def clipSub {R C : ℕ} (v e : Mat R C) : Mat R C := fun i => max (v i - e i) w0

/-- A hidden step on separate copies of the features: clip (h32 − (L·h16) · dr) at zero, dr a [1, C] row. -/
def hid {R K C : ℕ} (L : Mat R K) (h16 : Mat K C) (h32 : Mat R C) (dr : Mat 1 C) : Mat R C :=
  fun i => max (h32 i - mm L h16 i * dr (ix2 0 (i 1))) w0

/-- A product plus a [1, C] row added to every row. -/
def mmBias {R K C : ℕ} (l : Mat R K) (r : Mat K C) (b : Mat 1 C) : Mat R C :=
  fun i => mm l r i + b (ix2 0 (i 1))

/-- A row's maximum, folded from −∞. -/
def rowMax {R C : ℕ} (z : Mat R C) (p : Fin R) : EReal :=
  (Finset.univ : Finset (Fin C)).fold max wNegInf (fun k => z (ix2 p k))

/-- A row's sum of exp (z − the row's maximum). -/
def rowSumExp {R C : ℕ} (z : Mat R C) (p : Fin R) : EReal :=
  ∑ k : Fin C, Ideal.exp (z (ix2 p k) - rowMax z p)

/-- The log-softmax along rows as the kernel groups it: z − (log S + M). -/
def logSoftmaxK {R C : ℕ} (z : Mat R C) : Mat R C :=
  fun i => z i - (Ideal.log (rowSumExp z (i 0)) + rowMax z (i 0))

/-- The log-softmax along rows as the reference groups it: (z − M) − log S. -/
def logSoftmaxR {R C : ℕ} (z : Mat R C) : Mat R C :=
  fun i => (z i - rowMax z (i 0)) - Ideal.log (rowSumExp z (i 0))

/-- Every entry of an array is a real number (neither infinity). -/
def AllReal {s : Shape} (a : s.Idx → EReal) : Prop := ∀ i, ∃ r : ℝ, a i = (r : EReal)

/-! ## The host-side pieces -/

/-- A weight matrix with row k scaled by (d k + 1). -/
def scaleRows {K C : ℕ} (d : Vec1 K) (W : Mat K C) : Mat K C := fun i => (d (ix1 (i 0)) + w1) * W i

/-- A [C] array as a [1, C] row. -/
def asRow {C : ℕ} (b : Vec1 C) : Mat 1 C := fun i => b (ix1 (i 1))

/-- Row r of a [2, C] array as a [1, C] row. -/
def pickRow {C : ℕ} (dh : Mat 2 C) (r : Fin 2) : Mat 1 C := fun i => dh (ix2 r (i 1))

/-! ## The kernel's composite -/

section
variable (x : Mat 10000 128) (L : Mat 10000 10000) (W1 : Mat 128 128) (b1 d1 : Vec1 128) (dh : Mat 2 128)
  (W2 : Mat 128 64) (b2 : Vec1 64) (d2 : Vec1 128)

def kU1 : Mat 10000 128 := mm x (scaleRows d1 W1)
def kV1 : Mat 10000 128 := mmBias x W1 (asRow b1)
def kH1 : Mat 10000 128 := clipSub (kV1 x W1 b1) (mm L (kU1 x W1 d1))
def kH2 : Mat 10000 128 := hid L (kH1 x L W1 b1 d1) (kH1 x L W1 b1 d1) (pickRow dh 0)
def kH3 : Mat 10000 128 := hid L (kH2 x L W1 b1 d1 dh) (kH2 x L W1 b1 d1 dh) (pickRow dh 1)
def kU2 : Mat 10000 64 := mm (kH3 x L W1 b1 d1 dh) (scaleRows d2 W2)
def kV2 : Mat 10000 64 := mmBias (kH3 x L W1 b1 d1 dh) W2 (asRow b2)
def kZ : Mat 10000 64 := clipSub (kV2 x L W1 b1 d1 dh W2 b2) (mm L (kU2 x L W1 b1 d1 dh W2 d2))
/-- What the kernel's program leaves in its result array. -/
def kOut : Mat 10000 64 := logSoftmaxK (kZ x L W1 b1 d1 dh W2 b2 d2)

/-! ## The reference's composite -/

/-- x − (L·x) scaled column k by (d k + 1). -/
def mixed {C : ℕ} (L : Mat 10000 10000) (h : Mat 10000 C) (d : Vec1 C) : Mat 10000 C :=
  fun j => h j - mm L h j * (d (ix1 (j 1)) + w1)

def rH1 : Mat 10000 128 := fun i => max (mmBias (mixed L x d1) W1 (asRow b1) i) w0
def rH2 : Mat 10000 128 := hid L (rH1 x L W1 b1 d1) (rH1 x L W1 b1 d1) (pickRow dh 0)
def rH3 : Mat 10000 128 := hid L (rH2 x L W1 b1 d1 dh) (rH2 x L W1 b1 d1 dh) (pickRow dh 1)
def rZ : Mat 10000 64 := fun i => max (mmBias (mixed L (rH3 x L W1 b1 d1 dh) d2) W2 (asRow b2) i) w0
/-- What the reference's program leaves in its result array. -/
def rOut : Mat 10000 64 := logSoftmaxR (rZ x L W1 b1 d1 dh W2 b2 d2)

end

end Cert.AdaGnn

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Region0.lean ====
/-
  The first region projects the features. Each of its five grid points takes a strip of 2000 rows of x and the whole of
  W1, of the row-scaled W1 and of the bias row, and writes the strip's rows of U = x · (scaled W1) and of
  V = x · W1 + bias. The strips tile both result arrays.
-/
import proofs.«174973_g47665547051069_cont_8to1c4_396_5_alg».proof.Proof.Gen.KernelIdeal.Frame
import proofs.«174973_g47665547051069_cont_8to1c4_396_5_alg».proof.Proof.Layers
import proofs.«174973_g47665547051069_cont_8to1c4_396_5_alg».proof.Proof.LibPlainDot
import Idealize.ShloMosaic.Lib.Pipeline.Value

noncomputable section

namespace Cert.AdaGnn.Region0

open Idealize.ShloMosaic Idealize.ShloMosaic.TcCoe Idealize.ShloMosaic.ValueIdx Idealize.SL.Sem
open Cert.KernelIdeal Cert.KernelIdeal.Gen Cert.AdaGnn

variable (V : (c : Dev nD) → (b : Ref sig .tc) → Buf (Elt Ideal) ((c : Thread nD τ).loc b))

/-! ## The two payloads at an entry -/

/-- The product's dimension numbers are the plain row-by-column ones. -/
theorem plain : PlainDot.IsPlain (R := 2000) (K := 128) (C := 128) dot_S2000x128_S128x128_S2000x128_1_0_0_1_n_n :=
  ⟨rfl, rfl, rfl, rfl, rfl, rfl⟩

/-- The first payload at an entry: the strip's row times the column of the second operand. -/
theorem pay_u (x : FVec Ideal S2000x128 .f32) (w : FVec Ideal S128x128 .f32) (p : Fin 2000) (q : Fin 128) :
    k0_pay1 (F := Ideal) x w (ix2 p q) = ∑ k : Fin 128, x (ix2 p k) * w (ix2 k q) := by
  unfold k0_pay1
  rw [shapeCast_self, truncf_apply]
  exact PlainDot.matmul_zero_apply plain (some .fp32) x w p q

/-- The second payload at an entry: the product's entry plus the row's entry in that column. -/
theorem pay_v (x : FVec Ideal S2000x128 .f32) (w : FVec Ideal S128x128 .f32) (b : FVec Ideal S1x128 .f32) (p : Fin 2000) (q : Fin 128) :
    k0_pay2 (F := Ideal) x w b (ix2 p q) = (∑ k : Fin 128, x (ix2 p k) * w (ix2 k q)) + b (ix2 0 q) := by
  unfold k0_pay2
  rw [shapeCast_self, addf_apply]
  refine congrArg₂ (· + ·) (PlainDot.matmul_zero_apply plain (some .fp32) x w p q) ?_
  refine broadcastTo_apply b broadcasts_S1x128_S2000x128 (ix2 p q) (ix2 0 q) ?_
  intro a
  match a with
  | ⟨0, _⟩ => rfl
  | ⟨1, _⟩ => rfl

/-! ## From a strip's block to the whole array -/

/-- The zero offsets of a whole-rectangle access, as the constant function. -/
theorem zero_off : (![0, 0] : Fin 2 → Nat) = fun _ => 0 := funext fun a => by fin_cases a <;> rfl

/-- The block indices of the six windows at a point: the strip windows (x, U, V) sit at block row t, column 0; the whole
    windows (the weights, the scaled weights, the bias row) at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first payload of a strip, when the strip's rows are the whole array's rows from row n · 2000 on and the second
    operand is the whole matrix: the product's entry in that row of the whole array. -/
theorem strip_u (x : FVec Ideal S2000x128 .f32) (w : FVec Ideal S128x128 .f32) (X : Mat 10000 128) (W : Mat 128 128)
    (i : S10000x128.Idx) (j : S2000x128.Idx) (n : ℕ)
    (h0 : (i 0).val = n * 2000 + (j 0).val) (h1 : (i 1).val = (j 1).val)
    (hx : ∀ (y : S2000x128.Idx) (z : S10000x128.Idx), (z 0).val = n * 2000 + (y 0).val → (z 1).val = (y 1).val → x y = X z)
    (hw : ∀ y : S128x128.Idx, w y = W y) :
    k0_pay1 (F := Ideal) x w j = mm X W i := by
  obtain ⟨p, q, rfl⟩ : ∃ (p : Fin 2000) (q : Fin 128), j = ix2 p q := ⟨j 0, j 1, eq_ix2 j⟩
  obtain ⟨r, s, rfl⟩ : ∃ (r : Fin 10000) (s : Fin 128), i = ix2 r s := ⟨i 0, i 1, eq_ix2 i⟩
  have hs : s = q := Fin.ext h1
  subst hs
  rw [pay_u, mm_apply]
  refine Finset.sum_congr rfl fun k _ => ?_
  rw [hx (ix2 p k) (ix2 r k) h0 rfl, hw]

/-- What a point writes back to U is its block of the product of the whole arrays. -/
theorem flushed_u (c : Dev nD) (t : Fin cfg0.N) :
    (dat0 (F := Ideal) V c).flushed 4 t
      = ((cfg0.win 4).blk t).view.read (Elt Ideal) (mm (V c main_arg0 : Mat 10000 128) (V c main_v4 : Mat 128 128)) := by
  show (cfg0.win 4).cut (grid0.coords t) ((dat0 (F := Ideal) V c).after 4 t) = _
  rw [after0_4]
  unfold out0_4
  rw [View.canon_unit_zero zero_off]
  simp only [View.ld_unit_zero (S := S2000x128) zero_off, View.ld_unit_zero (S := S128x128) zero_off]
  obtain ⟨e00, e01, e10, e11, e20, e21, e30, e31, e40, e41, e50, e51⟩ := block_index t
  funext j
  show k0_pay1 (F := Ideal) (iblk0 V c 0 t) (iblk0 V c 2 t) j
    = mm (V c main_arg0 : Mat 10000 128) (V c main_v4 : Mat 128 128) (((cfg0.win 4).blk t).view.emb j)
  refine strip_u _ _ _ _ _ j t.val ?_ ?_ ?_ ?_
  · show win0_4.index t (0 : Fin 2) * 2000 + 1 * (j 0).val = _
    omega
  · show win0_4.index t (1 : Fin 2) * 128 + 1 * (j 1).val = _
    omega
  · intro y z hz0 hz1
    show V c main_arg0 (((cfg0.win 0).blk t).view.emb y) = V c main_arg0 z
    refine congrArg _ (funext fun a => Fin.ext ?_)
    match a with
    | ⟨0, _⟩ => show win0_0.index t (0 : Fin 2) * 2000 + 1 * (y 0).val = (z 0).val; omega
    | ⟨1, _⟩ => show win0_0.index t (1 : Fin 2) * 128 + 1 * (y 1).val = (z 1).val; omega
  · intro y
    show V c main_v4 (((cfg0.win 2).blk t).view.emb y) = V c main_v4 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega

/-- An entry of U lies in a point's block exactly when each coordinate lies in the block's range on its axis. -/
theorem mem_block_u (t : Fin cfg0.N) (i : S10000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v12_0).slice (win0_4.rect t)).set ↔ _
  rw [View.set_slice_whole, Rect.mem_set_unit]
  exact Iff.rfl

/-- Row r of U lies in the block of the point r / 2000: the five strips tile the array. -/
theorem cover_u (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : grid0.N = 5 := N_0
  obtain ⟨t, ht⟩ : ∃ t : Fin cfg0.N, t.val = (i 0).val / 2000 :=
    ⟨⟨(i 0).val / 2000, by show (i 0).val / 2000 < grid0.N; omega⟩, rfl⟩
  obtain ⟨e00, e01, e10, e11, e20, e21, e30, e31, e40, e41, e50, e51⟩ := block_index t
  refine ⟨t, flush0_4 t, ?_⟩
  rw [mem_block_u]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

/-- The second payload of a strip, when the strip's rows are the whole array's rows from row n · 2000 on and the second
    operand and the row are whole: the product's entry in that row of the whole array, plus the row's entry. -/
theorem strip_v (x : FVec Ideal S2000x128 .f32) (w : FVec Ideal S128x128 .f32) (b : FVec Ideal S1x128 .f32)
    (X : Mat 10000 128) (W : Mat 128 128) (B : Mat 1 128)
    (i : S10000x128.Idx) (j : S2000x128.Idx) (n : ℕ)
    (h0 : (i 0).val = n * 2000 + (j 0).val) (h1 : (i 1).val = (j 1).val)
    (hx : ∀ (y : S2000x128.Idx) (z : S10000x128.Idx), (z 0).val = n * 2000 + (y 0).val → (z 1).val = (y 1).val → x y = X z)
    (hw : ∀ y : S128x128.Idx, w y = W y) (hb : ∀ y : S1x128.Idx, b y = B y) :
    k0_pay2 (F := Ideal) x w b j = mmBias X W B i := by
  obtain ⟨p, q, rfl⟩ : ∃ (p : Fin 2000) (q : Fin 128), j = ix2 p q := ⟨j 0, j 1, eq_ix2 j⟩
  obtain ⟨r, s, rfl⟩ : ∃ (r : Fin 10000) (s : Fin 128), i = ix2 r s := ⟨i 0, i 1, eq_ix2 i⟩
  have hs : s = q := Fin.ext h1
  subst hs
  rw [pay_v]
  show _ = mm X W (ix2 r s) + B (ix2 0 s)
  rw [mm_apply, hb]
  refine congrArg (· + B (ix2 0 s)) (Finset.sum_congr rfl fun k _ => ?_)
  rw [hx (ix2 p k) (ix2 r k) h0 rfl, hw]

/-- What a point writes back to V is its block of the product of the whole arrays plus the row. -/
theorem flushed_v (c : Dev nD) (t : Fin cfg0.N) :
    (dat0 (F := Ideal) V c).flushed 5 t
      = ((cfg0.win 5).blk t).view.read (Elt Ideal)
          (mmBias (V c main_arg0 : Mat 10000 128) (V c main_arg2 : Mat 128 128) (V c main_v10 : Mat 1 128)) := by
  show (cfg0.win 5).cut (grid0.coords t) ((dat0 (F := Ideal) V c).after 5 t) = _
  rw [after0_5]
  unfold out0_5
  rw [View.canon_unit_zero zero_off]
  simp only [View.ld_unit_zero (S := S2000x128) zero_off, View.ld_unit_zero (S := S128x128) zero_off,
    View.ld_unit_zero (S := S1x128) zero_off]
  obtain ⟨e00, e01, e10, e11, e20, e21, e30, e31, e40, e41, e50, e51⟩ := block_index t
  funext j
  show k0_pay2 (F := Ideal) (iblk0 V c 0 t) (iblk0 V c 1 t) (iblk0 V c 3 t) j
    = mmBias (V c main_arg0 : Mat 10000 128) (V c main_arg2 : Mat 128 128) (V c main_v10 : Mat 1 128)
        (((cfg0.win 5).blk t).view.emb j)
  refine strip_v _ _ _ _ _ _ _ j t.val ?_ ?_ ?_ ?_ ?_
  · show win0_5.index t (0 : Fin 2) * 2000 + 1 * (j 0).val = _
    omega
  · show win0_5.index t (1 : Fin 2) * 128 + 1 * (j 1).val = _
    omega
  · intro y z hz0 hz1
    show V c main_arg0 (((cfg0.win 0).blk t).view.emb y) = V c main_arg0 z
    refine congrArg _ (funext fun a => Fin.ext ?_)
    match a with
    | ⟨0, _⟩ => show win0_0.index t (0 : Fin 2) * 2000 + 1 * (y 0).val = (z 0).val; omega
    | ⟨1, _⟩ => show win0_0.index t (1 : Fin 2) * 128 + 1 * (y 1).val = (z 1).val; omega
  · intro y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · intro y
    show V c main_v10 (((cfg0.win 3).blk t).view.emb y) = V c main_v10 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega

/-- An entry of V lies in a point's block exactly when each coordinate lies in the block's range on its axis. -/
theorem mem_block_v (t : Fin cfg0.N) (i : S10000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v12_1).slice (win0_5.rect t)).set ↔ _
  rw [View.set_slice_whole, Rect.mem_set_unit]
  exact Iff.rfl

/-- Row r of V lies in the block of the point r / 2000: the five strips tile the array. -/
theorem cover_v (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : grid0.N = 5 := N_0
  obtain ⟨t, ht⟩ : ∃ t : Fin cfg0.N, t.val = (i 0).val / 2000 :=
    ⟨⟨(i 0).val / 2000, by show (i 0).val / 2000 < grid0.N; omega⟩, rfl⟩
  obtain ⟨e00, e01, e10, e11, e20, e21, e30, e31, e40, e41, e50, e51⟩ := block_index t
  refine ⟨t, flush0_5 t, ?_⟩
  rw [mem_block_v]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-! ## The two arrays after the region -/

/-- The array of U after the region: x times the row-scaled weights. -/
theorem arr_u (c : Dev nD) :
    (dat0 (F := Ideal) V c).arrAt 4 cfg0.N = mm (V c main_arg0 : Mat 10000 128) (V c main_v4 : Mat 128 128) := by
  exact (dat0 (F := Ideal) V c).arrAt_eq_of_cover 4 _ (fun t _ => flushed_u V c t) cover_u

/-- The array of V after the region: x times the weights, plus the bias row. -/
theorem arr_v (c : Dev nD) :
    (dat0 (F := Ideal) V c).arrAt 5 cfg0.N
      = mmBias (V c main_arg0 : Mat 10000 128) (V c main_arg2 : Mat 128 128) (V c main_v10 : Mat 1 128) := by
  exact (dat0 (F := Ideal) V c).arrAt_eq_of_cover 5 _ (fun t _ => flushed_v V c t) cover_v

end Cert.AdaGnn.Region0

end
-- ==== Proof.Region1.lean ====
/-
  The second region is the first sweep over the operator L. Each of its 25 grid points takes a strip of 400 rows of L
  and of V and the whole of U, copies the strip of L, and writes the strip's rows of relu(V − L · U) twice (the two
  copies differ only in their float format, which the extended reals do not see). The strips tile all three arrays.
-/
import proofs.«174973_g47665547051069_cont_8to1c4_396_5_alg».proof.Proof.Gen.KernelIdeal.Frame
import proofs.«174973_g47665547051069_cont_8to1c4_396_5_alg».proof.Proof.Layers
import proofs.«174973_g47665547051069_cont_8to1c4_396_5_alg».proof.Proof.LibPlainDot
import Idealize.ShloMosaic.Lib.Pipeline.Value

noncomputable section

namespace Cert.AdaGnn.Region1

open Idealize.ShloMosaic Idealize.ShloMosaic.TcCoe Idealize.ShloMosaic.ValueIdx Idealize.SL.Sem
open Cert.KernelIdeal Cert.KernelIdeal.Gen Cert.AdaGnn

variable (V : (c : Dev nD) → (b : Ref sig .tc) → Buf (Elt Ideal) ((c : Thread nD τ).loc b))

/-- The copy's payload is the strip itself: the change of float format is the identity on the extended reals. -/
theorem pay1_eq (v0 : Vec Ideal S400x10000 .f32) : k1_pay1 v0 = v0 := rfl

/-- The record of the strip's product is that of a plain row-by-column product. -/
theorem plain_strip : PlainDot.IsPlain (R := 400) (K := 10000) (C := 128) dot_S400x10000_S10000x128_S400x128_1_0_0_1_n_n :=
  ⟨rfl, rfl, rfl, rfl, rfl, rfl⟩

/-- The features' payload at an entry: clip (v(p, q) − Σ_k l(p, k) · u(k, q)) at zero. -/
theorem pay2_apply (v0 : Vec Ideal S400x10000 .f32) (v3 : Vec Ideal S10000x128 .bf16) (v6 : Vec Ideal S400x128 .f32)
    (p : Fin 400) (q : Fin 128) :
    k1_pay2 v0 v3 v6 (ix2 p q) = max (v6 (ix2 p q) - ∑ k : Fin 10000, v0 (ix2 p k) * v3 (ix2 k q)) w0 := by
  unfold k1_pay2
  rw [maximumf_apply, subf_apply, shapeCast_self, shapeCast_self, broadcast_apply]
  refine congrArg (fun z => max (v6 (ix2 p q) - z) w0) ?_
  exact PlainDot.matmul_zero_apply plain_strip none (k1_pay1 v0) v3 p q

/-- The second copy's payload is the first's: the change of float format is the identity on the extended reals. -/
theorem pay3_eq (v0 : Vec Ideal S400x10000 .f32) (v3 : Vec Ideal S10000x128 .bf16) (v6 : Vec Ideal S400x128 .f32) :
    k1_pay3 v0 v3 v6 = k1_pay2 v0 v3 v6 := rfl

/-- The zero offsets of a whole-buffer access, as the constant function. -/
theorem off_zero : (![0, 0] : Fin 2 → Nat) = fun _ => 0 := funext fun a => by fin_cases a <;> rfl

/-- The index maps over the grid: point t takes block row t of the operator, of V and of the three results, at block
    column 0; U is taken whole (block (0, 0)) at every point. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point t writes back to the copy of the operator is block t of the operator. -/
theorem flushed_l (c : Dev nD) (t : Fin cfg1.N) :
    (dat1 (F := Ideal) V c).flushed 3 t
      = ((cfg1.win 3).blk t).view.read (Elt Ideal) (V c main_arg1 : Mat 10000 10000) := by
  show (cfg1.win 3).cut (grid1.coords t) ((dat1 V c).after 3 t) = _
  rw [after1_3]
  unfold out1_3
  rw [View.canon_unit_zero off_zero]
  simp only [View.ld_unit_zero (S := S400x10000) off_zero]
  rw [pay1_eq]
  obtain ⟨e00, e01, -, -, -, -, e30, e31, -⟩ := index_facts t
  funext j
  show V c main_arg1 (((cfg1.win 0).blk t).view.emb j) = V c main_arg1 (((cfg1.win 3).blk t).view.emb j)
  refine congrArg (V c main_arg1) (funext fun a => Fin.ext ?_)
  match a with
  | ⟨0, _⟩ =>
    show win1_0.index t (0 : Fin 2) * 400 + 1 * (j 0).val = win1_3.index t (0 : Fin 2) * 400 + 1 * (j 0).val
    rw [e00, e30]
  | ⟨1, _⟩ =>
    show win1_0.index t (1 : Fin 2) * 10000 + 1 * (j 1).val = win1_3.index t (1 : Fin 2) * 10000 + 1 * (j 1).val
    rw [e01, e31]

/-- Strip n of clip (V − L·U): when x0 is rows 400 n … 400 n + 399 of L, x1 is U and x2 is the same rows of V, entry
    (p, q) of the features' payload is entry (400 n + p, q) of clip (V − L·U); it depends on row 400 n + p of L, on
    column q of U and on entry (400 n + p, q) of V. -/
theorem pay2_strip (Lm : Mat 10000 10000) (Um : Mat 10000 128) (Vm : Mat 10000 128)
    (x0 : Vec Ideal S400x10000 .f32) (x1 : Vec Ideal S10000x128 .bf16) (x2 : Vec Ideal S400x128 .f32) (n : ℕ)
    (h0 : ∀ (j : S400x10000.Idx) (i : S10000x10000.Idx),
      (i 0).val = n * 400 + (j 0).val → (i 1).val = (j 1).val → x0 j = Lm i)
    (h1 : ∀ i : S10000x128.Idx, x1 i = Um i)
    (h2 : ∀ (j : S400x128.Idx) (i : S10000x128.Idx),
      (i 0).val = n * 400 + (j 0).val → (i 1).val = (j 1).val → x2 j = Vm i)
    (j : S400x128.Idx) (i : S10000x128.Idx) (hi0 : (i 0).val = n * 400 + (j 0).val) (hi1 : (i 1).val = (j 1).val) :
    k1_pay2 x0 x1 x2 j = clipSub Vm (mm Lm Um) i := by
  obtain ⟨p, q, rfl⟩ : ∃ (p : Fin 400) (q : Fin 128), j = ix2 p q := ⟨j 0, j 1, eq_ix2 j⟩
  obtain ⟨r, s, rfl⟩ : ∃ (r : Fin 10000) (s : Fin 128), i = ix2 r s := ⟨i 0, i 1, eq_ix2 i⟩
  have hs : s = q := Fin.ext hi1
  subst hs
  rw [pay2_apply]
  show _ = max (Vm (ix2 r s) - mm Lm Um (ix2 r s)) w0
  rw [mm_apply, h2 (ix2 p s) (ix2 r s) hi0 rfl]
  refine congrArg (fun z => max (Vm (ix2 r s) - z) w0) (Finset.sum_congr rfl fun k _ => ?_)
  rw [h0 (ix2 p k) (ix2 r k) hi0 rfl, h1]

/-- The three input blocks at point t are rows 400 t … 400 t + 399 of L, the whole of U, and the same rows of V; so what
    the features' payload makes of them is block t of clip (V − L·U). -/
theorem pay2_blocks (c : Dev nD) (t : Fin cfg1.N) (j : S400x128.Idx) (i : S10000x128.Idx)
    (hi0 : (i 0).val = t.val * 400 + (j 0).val) (hi1 : (i 1).val = (j 1).val) :
    k1_pay2 (iblk1 (F := Ideal) V c 0 t) (iblk1 V c 1 t) (iblk1 V c 2 t) j
      = clipSub (V c main_v12_1 : Mat 10000 128) (mm (V c main_arg1 : Mat 10000 10000) (V c main_v12_0 : Mat 10000 128)) i := by
  obtain ⟨e00, e01, e10, e11, e20, e21, -⟩ := index_facts t
  refine pay2_strip (V c main_arg1) (V c main_v12_0) (V c main_v12_1) _ _ _ t.val ?_ ?_ ?_ j i hi0 hi1
  · intro y z hz0 hz1
    show V c main_arg1 (((cfg1.win 0).blk t).view.emb y) = V c main_arg1 z
    refine congrArg (V c main_arg1) (funext fun a => Fin.ext ?_)
    match a with
    | ⟨0, _⟩ => show win1_0.index t (0 : Fin 2) * 400 + 1 * (y 0).val = (z 0).val; rw [e00, hz0]; omega
    | ⟨1, _⟩ => show win1_0.index t (1 : Fin 2) * 10000 + 1 * (y 1).val = (z 1).val; rw [e01, hz1]; omega
  · intro z
    show V c main_v12_0 (((cfg1.win 1).blk t).view.emb z) = V c main_v12_0 z
    refine congrArg (V c main_v12_0) (funext fun a => Fin.ext ?_)
    match a with
    | ⟨0, _⟩ => show win1_1.index t (0 : Fin 2) * 10000 + 1 * (z 0).val = (z 0).val; rw [e10]; omega
    | ⟨1, _⟩ => show win1_1.index t (1 : Fin 2) * 128 + 1 * (z 1).val = (z 1).val; rw [e11]; omega
  · intro y z hz0 hz1
    show V c main_v12_1 (((cfg1.win 2).blk t).view.emb y) = V c main_v12_1 z
    refine congrArg (V c main_v12_1) (funext fun a => Fin.ext ?_)
    match a with
    | ⟨0, _⟩ => show win1_2.index t (0 : Fin 2) * 400 + 1 * (y 0).val = (z 0).val; rw [e20, hz0]; omega
    | ⟨1, _⟩ => show win1_2.index t (1 : Fin 2) * 128 + 1 * (y 1).val = (z 1).val; rw [e21, hz1]; omega

/-- What point t writes back to the first copy of the features is block t of clip (V − L·U). -/
theorem flushed_h32 (c : Dev nD) (t : Fin cfg1.N) :
    (dat1 (F := Ideal) V c).flushed 4 t
      = ((cfg1.win 4).blk t).view.read (Elt Ideal)
          (clipSub (V c main_v12_1 : Mat 10000 128) (mm (V c main_arg1 : Mat 10000 10000) (V c main_v12_0 : Mat 10000 128))) := by
  show (cfg1.win 4).cut (grid1.coords t) ((dat1 V c).after 4 t) = _
  rw [after1_4]
  unfold out1_4
  rw [View.canon_unit_zero off_zero]
  simp only [View.ld_unit_zero (S := S400x10000) off_zero, View.ld_unit_zero (S := S10000x128) off_zero,
    View.ld_unit_zero (S := S400x128) off_zero]
  obtain ⟨-, -, -, -, -, -, -, -, e40, e41, -⟩ := index_facts t
  funext j
  show k1_pay2 (iblk1 V c 0 t) (iblk1 V c 1 t) (iblk1 V c 2 t) j
    = clipSub (V c main_v12_1 : Mat 10000 128) (mm (V c main_arg1 : Mat 10000 10000) (V c main_v12_0 : Mat 10000 128))
        (((cfg1.win 4).blk t).view.emb j)
  refine pay2_blocks V c t j _ ?_ ?_
  · show win1_4.index t (0 : Fin 2) * 400 + 1 * (j 0).val = t.val * 400 + (j 0).val; rw [e40]; omega
  · show win1_4.index t (1 : Fin 2) * 128 + 1 * (j 1).val = (j 1).val; rw [e41]; omega

/-- What point t writes back to the second copy of the features is block t of clip (V − L·U). -/
theorem flushed_h16 (c : Dev nD) (t : Fin cfg1.N) :
    (dat1 (F := Ideal) V c).flushed 5 t
      = ((cfg1.win 5).blk t).view.read (Elt Ideal)
          (clipSub (V c main_v12_1 : Mat 10000 128) (mm (V c main_arg1 : Mat 10000 10000) (V c main_v12_0 : Mat 10000 128))) := by
  show (cfg1.win 5).cut (grid1.coords t) ((dat1 V c).after 5 t) = _
  rw [after1_5]
  unfold out1_5
  rw [View.canon_unit_zero off_zero]
  simp only [View.ld_unit_zero (S := S400x10000) off_zero, View.ld_unit_zero (S := S10000x128) off_zero,
    View.ld_unit_zero (S := S400x128) off_zero]
  rw [pay3_eq]
  obtain ⟨-, -, -, -, -, -, -, -, -, -, e50, e51⟩ := index_facts t
  funext j
  show k1_pay2 (iblk1 V c 0 t) (iblk1 V c 1 t) (iblk1 V c 2 t) j
    = clipSub (V c main_v12_1 : Mat 10000 128) (mm (V c main_arg1 : Mat 10000 10000) (V c main_v12_0 : Mat 10000 128))
        (((cfg1.win 5).blk t).view.emb j)
  refine pay2_blocks V c t j _ ?_ ?_
  · show win1_5.index t (0 : Fin 2) * 400 + 1 * (j 0).val = t.val * 400 + (j 0).val; rw [e50]; omega
  · show win1_5.index t (1 : Fin 2) * 128 + 1 * (j 1).val = (j 1).val; rw [e51]; omega

/-- An entry of the copy of the operator is in point t's block iff each coordinate is in the block's range on its axis. -/
theorem mem_blk_l (t : Fin cfg1.N) (i : S10000x10000.Idx) :
    i ∈ ((cfg1.win 3).blk t).view.set ↔ ∀ a : Fin 2, win1_3.index t a * S400x10000.size a ≤ (i a).val
      ∧ (i a).val < win1_3.index t a * S400x10000.size a + S400x10000.size a := by
  show i ∈ ((View.whole main_v13_0).slice (win1_3.rect t)).set ↔ _
  rw [View.set_slice_whole, Rect.mem_set_unit]
  exact Iff.rfl

/-- The same for the first copy of the features. -/
theorem mem_blk_h32 (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v13_1).slice (win1_4.rect t)).set ↔ _
  rw [View.set_slice_whole, Rect.mem_set_unit]
  exact Iff.rfl

/-- The same for the second copy of the features. -/
theorem mem_blk_h16 (t : Fin cfg1.N) (i : S10000x128.Idx) :
    i ∈ ((cfg1.win 5).blk t).view.set ↔ ∀ a : Fin 2, win1_5.index t a * S400x128.size a ≤ (i a).val
      ∧ (i a).val < win1_5.index t a * S400x128.size a + S400x128.size a := by
  show i ∈ ((View.whole main_v13_2).slice (win1_5.rect t)).set ↔ _
  rw [View.set_slice_whole, Rect.mem_set_unit]
  exact Iff.rfl

/-- The grid point whose strip holds row r: r / 400, below 25 because r is below 10000. -/
def pointOf (r : ℕ) (hr : r < 10000) : Fin cfg1.N :=
  ⟨r / 400, Nat.lt_of_lt_of_eq (by omega : r / 400 < 25) N_1.symm⟩

theorem pointOf_val (r : ℕ) (hr : r < 10000) : (pointOf r hr).val = r / 400 := rfl

/-- The strips of 400 rows tile the copy of the operator: row r lies in the block of point r / 400. -/
theorem cover_l (i : S10000x10000.Idx) :
    ∃ t : Fin cfg1.N, (cfg1.win 3).flush t = true ∧ i ∈ ((cfg1.win 3).blk t).view.set := by
  have hi0 : (i 0).val < 10000 := (i 0).isLt
  have hi1 : (i 1).val < 10000 := (i 1).isLt
  refine ⟨pointOf (i 0).val hi0, flush1_3 _, ?_⟩
  rw [mem_blk_l]
  obtain ⟨-, -, -, -, -, -, e30, e31, -⟩ := index_facts (pointOf (i 0).val hi0)
  rw [pointOf_val] at e30
  intro a
  match a with
  | ⟨0, _⟩ =>
    show win1_3.index (pointOf (i 0).val hi0) (0 : Fin 2) * 400 ≤ (i 0).val
      ∧ (i 0).val < win1_3.index (pointOf (i 0).val hi0) (0 : Fin 2) * 400 + 400
    rw [e30]; omega
  | ⟨1, _⟩ =>
    show win1_3.index (pointOf (i 0).val hi0) (1 : Fin 2) * 10000 ≤ (i 1).val
      ∧ (i 1).val < win1_3.index (pointOf (i 0).val hi0) (1 : Fin 2) * 10000 + 10000
    rw [e31]; omega

/-- The strips tile the first copy of the features. -/
theorem cover_h32 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  refine ⟨pointOf (i 0).val hi0, flush1_4 _, ?_⟩
  rw [mem_blk_h32]
  obtain ⟨-, -, -, -, -, -, -, -, e40, e41, -⟩ := index_facts (pointOf (i 0).val hi0)
  rw [pointOf_val] at e40
  intro a
  match a with
  | ⟨0, _⟩ =>
    show win1_4.index (pointOf (i 0).val hi0) (0 : Fin 2) * 400 ≤ (i 0).val
      ∧ (i 0).val < win1_4.index (pointOf (i 0).val hi0) (0 : Fin 2) * 400 + 400
    rw [e40]; omega
  | ⟨1, _⟩ =>
    show win1_4.index (pointOf (i 0).val hi0) (1 : Fin 2) * 128 ≤ (i 1).val
      ∧ (i 1).val < win1_4.index (pointOf (i 0).val hi0) (1 : Fin 2) * 128 + 128
    rw [e41]; omega

/-- The strips tile the second copy of the features. -/
theorem cover_h16 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  refine ⟨pointOf (i 0).val hi0, flush1_5 _, ?_⟩
  rw [mem_blk_h16]
  obtain ⟨-, -, -, -, -, -, -, -, -, -, e50, e51⟩ := index_facts (pointOf (i 0).val hi0)
  rw [pointOf_val] at e50
  intro a
  match a with
  | ⟨0, _⟩ =>
    show win1_5.index (pointOf (i 0).val hi0) (0 : Fin 2) * 400 ≤ (i 0).val
      ∧ (i 0).val < win1_5.index (pointOf (i 0).val hi0) (0 : Fin 2) * 400 + 400
    rw [e50]; omega
  | ⟨1, _⟩ =>
    show win1_5.index (pointOf (i 0).val hi0) (1 : Fin 2) * 128 ≤ (i 1).val
      ∧ (i 1).val < win1_5.index (pointOf (i 0).val hi0) (1 : Fin 2) * 128 + 128
    rw [e51]; omega

/-- The copy of the operator is the operator. -/
theorem arr_l (c : Dev nD) :
    (dat1 (F := Ideal) V c).arrAt 3 cfg1.N = (V c main_arg1 : Mat 10000 10000) :=
  (dat1 (F := Ideal) V c).arrAt_eq_of_cover 3 _ (fun t _ => flushed_l V c t) cover_l

/-- The first layer's features. -/
theorem arr_h32 (c : Dev nD) :
    (dat1 (F := Ideal) V c).arrAt 4 cfg1.N
      = clipSub (V c main_v12_1 : Mat 10000 128) (mm (V c main_arg1 : Mat 10000 10000) (V c main_v12_0 : Mat 10000 128)) :=
  (dat1 (F := Ideal) V c).arrAt_eq_of_cover 4 _ (fun t _ => flushed_h32 V c t) cover_h32

/-- Their second copy. -/
theorem arr_h16 (c : Dev nD) :
    (dat1 (F := Ideal) V c).arrAt 5 cfg1.N
      = clipSub (V c main_v12_1 : Mat 10000 128) (mm (V c main_arg1 : Mat 10000 10000) (V c main_v12_0 : Mat 10000 128)) :=
  (dat1 (F := Ideal) V c).arrAt_eq_of_cover 5 _ (fun t _ => flushed_h16 V c t) cover_h16

end Cert.AdaGnn.Region1

end
-- ==== Proof.Region2.lean ====
/-
  A hidden step. Each of the ten grid points takes a strip of 1000 rows of the operator's copy and of the features,
  the whole second copy of the features and the step's row of diagonal entries, and writes the strip's rows of
  relu(h − (L · h) · d) twice. The strips tile both result arrays.
-/
import proofs.«174973_g47665547051069_cont_8to1c4_396_5_alg».proof.Proof.Gen.KernelIdeal.Frame
import proofs.«174973_g47665547051069_cont_8to1c4_396_5_alg».proof.Proof.Layers
import proofs.«174973_g47665547051069_cont_8to1c4_396_5_alg».proof.Proof.LibPlainDot
import Idealize.ShloMosaic.Lib.Pipeline.Value

noncomputable section

namespace Cert.AdaGnn.Region2

open Idealize.ShloMosaic Idealize.ShloMosaic.TcCoe Idealize.ShloMosaic.ValueIdx Idealize.SL.Sem
open Cert.KernelIdeal Cert.KernelIdeal.Gen Cert.AdaGnn

/-! ## The body's values at an entry -/

/-- The first stored value at entry (p, q) of a strip: the strip's row p of the operator's copy against column q of
    the whole second copy of the features, times the diagonal row's entry q, taken off the strip's own entry and
    clipped at zero. The casts to the same shape are identities, the row is broadcast along the rows, the product
    is the plain row-by-column sum. -/
theorem pay1_apply (x0 : Vec Ideal S1000x10000 .bf16) (x1 : Vec Ideal S10000x128 .bf16) (x2 : Vec Ideal S1000x128 .f32)
    (x3 : Vec Ideal S1x128 .f32) (p : Fin 1000) (q : Fin 128) :
    k2_pay1 (F := Ideal) x0 x1 x2 x3 (ix2 p q)
      = max (x2 (ix2 p q) - (∑ k : Fin 10000, x0 (ix2 p k) * x1 (ix2 k q)) * x3 (ix2 0 q)) w0 := by
  have hdot : Idealize.ShloMosaic.matmul (F := Ideal) (φ₁ := .bf16) (φ₂ := .bf16) dot_S1000x10000_S10000x128_S1000x128_1_0_0_1_n_n none x0 x1
        (constant (F := Ideal) S1000x128 .f32 0x00000000#32) (ix2 p q)
      = ∑ k : Fin 10000, x0 (ix2 p k) * x1 (ix2 k q) :=
    PlainDot.matmul_zero_apply (d := dot_S1000x10000_S10000x128_S1000x128_1_0_0_1_n_n) (φ₁ := .bf16) (φ₂ := .bf16)
      ⟨rfl, rfl, rfl, rfl, rfl, rfl⟩ none x0 x1 p q
  have hrow : broadcastTo S1000x128 x3 broadcasts_S1x128_S1000x128 (ix2 p q) = x3 (ix2 0 q) :=
    broadcastTo_apply x3 broadcasts_S1x128_S1000x128 (ix2 p q) (ix2 0 q) (fun a => by
      match a with
      | ⟨0, _⟩ => rfl
      | ⟨1, _⟩ => rfl)
  unfold k2_pay1
  simp only [shapeCast_self]
  rw [maximumf_apply, subf_apply, mulf_apply, broadcast_apply, hdot, hrow]
  rfl

/-- The second stored value is the first, narrowed: on the extended reals the same number. -/
theorem pay2_apply (x0 : Vec Ideal S1000x10000 .bf16) (x1 : Vec Ideal S10000x128 .bf16) (x2 : Vec Ideal S1000x128 .f32)
    (x3 : Vec Ideal S1x128 .f32) (p : Fin 1000) (q : Fin 128) :
    k2_pay2 (F := Ideal) x0 x1 x2 x3 (ix2 p q)
      = max (x2 (ix2 p q) - (∑ k : Fin 10000, x0 (ix2 p k) * x1 (ix2 k q)) * x3 (ix2 0 q)) w0 :=
  pay1_apply x0 x1 x2 x3 p q

/-- The hidden step at entry (r, q) of the whole array, from entries read at indices that are known to be
    (r, q) of the features, (r, k) of the operator's copy, (k, q) of the second copy and (0, q) of the row. -/
theorem hid_at (L : Mat 10000 10000) (h16 h32 : Mat 10000 128) (dr : Mat 1 128)
    (i2 i4 : S10000x128.Idx) (i0 : Fin 10000 → S10000x10000.Idx) (i1 : Fin 10000 → S10000x128.Idx) (i3 : S1x128.Idx)
    (r : Fin 10000) (q : Fin 128)
    (h4 : i4 = ix2 r q) (h2 : i2 = ix2 r q) (h0 : ∀ k, i0 k = ix2 r k) (h1 : ∀ k, i1 k = ix2 k q) (h3 : i3 = ix2 0 q) :
    max (h32 i2 - (∑ k : Fin 10000, L (i0 k) * h16 (i1 k)) * dr i3) w0 = hid L h16 h32 dr i4 := by
  subst h4 h2 h3
  rw [Finset.sum_congr rfl fun k _ => by rw [h0 k, h1 k]]
  rfl

/-! ## The windows' blocks -/

theorem hz : (![0, 0] : Fin 2 → Nat) = fun _ => 0 := funext fun a => by fin_cases a <;> rfl

/-- The block indices of the six windows at a grid point: the strips (windows 0, 2, 4, 5) are at the point's number
    along the rows, the whole arrays (windows 1, 3) at zero; every window is at zero along the columns. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- What point t writes back to the first result is strip t of the hidden step of the arrays as the region finds them. -/
theorem flushed4_eq (c : Dev nD) (t : Fin cfg2.N) :
    (dat2 (F := Ideal) V c).flushed 4 t = ((cfg2.win 4).blk t).view.read (Elt Ideal)
      (hid (V c main_v13_0 : Mat 10000 10000) (V c main_v13_2 : Mat 10000 128) (V c main_v13_1 : Mat 10000 128) (V c main_v16 : Mat 1 128)) := by
  show (cfg2.win 4).cut (grid2.coords t) ((dat2 V c).after 4 t) = _
  rw [after2_4]
  unfold out2_4
  rw [View.canon_unit_zero hz]
  simp only [View.ld_unit_zero (S := S1000x10000) hz, View.ld_unit_zero (S := S10000x128) hz,
    View.ld_unit_zero (S := S1000x128) hz, View.ld_unit_zero (S := S1x128) hz]
  obtain ⟨e00, e01, e10, e11, e20, e21, e30, e31, e40, e41, e50, e51⟩ := idx_facts t
  have hN : t.val < 10 := lt_of_lt_of_eq t.isLt N_2
  funext j
  obtain ⟨p, q, rfl⟩ : ∃ (p : Fin 1000) (q : Fin 128), j = ix2 p q := ⟨j 0, j 1, eq_ix2 j⟩
  refine (pay1_apply _ _ _ _ p q).trans ?_
  -- the row of the whole array that entry p of strip t is
  have hp : p.val < 1000 := p.isLt
  have hr : t.val * 1000 + p.val < 10000 := by omega
  -- an entry of a block sits, on each axis, at block index × block size + 1 × its coordinate in the block
  refine hid_at (V c main_v13_0) (V c main_v13_2) (V c main_v13_1) (V c main_v16)
    (((cfg2.win 2).blk t).view.emb (ix2 p q)) (((cfg2.win 4).blk t).view.emb (ix2 p q))
    (fun k => ((cfg2.win 0).blk t).view.emb (ix2 p k)) (fun k => ((cfg2.win 1).blk t).view.emb (ix2 k q))
    (((cfg2.win 3).blk t).view.emb (ix2 (0 : Fin 1) q)) ⟨t.val * 1000 + p.val, hr⟩ q ?_ ?_ (fun k => ?_) (fun k => ?_) ?_
  · funext a; apply Fin.ext
    match a with
    | ⟨0, _⟩ => show win2_4.index t (0 : Fin 2) * 1000 + 1 * p.val = t.val * 1000 + p.val; omega
    | ⟨1, _⟩ => show win2_4.index t (1 : Fin 2) * 128 + 1 * q.val = q.val; omega
  · funext a; apply Fin.ext
    match a with
    | ⟨0, _⟩ => show win2_2.index t (0 : Fin 2) * 1000 + 1 * p.val = t.val * 1000 + p.val; omega
    | ⟨1, _⟩ => show win2_2.index t (1 : Fin 2) * 128 + 1 * q.val = q.val; omega
  · funext a; apply Fin.ext
    match a with
    | ⟨0, _⟩ => show win2_0.index t (0 : Fin 2) * 1000 + 1 * p.val = t.val * 1000 + p.val; omega
    | ⟨1, _⟩ => show win2_0.index t (1 : Fin 2) * 10000 + 1 * k.val = k.val; omega
  · funext a; apply Fin.ext
    match a with
    | ⟨0, _⟩ => show win2_1.index t (0 : Fin 2) * 10000 + 1 * k.val = k.val; omega
    | ⟨1, _⟩ => show win2_1.index t (1 : Fin 2) * 128 + 1 * q.val = q.val; omega
  · funext a; apply Fin.ext
    match a with
    | ⟨0, _⟩ => show win2_3.index t (0 : Fin 2) * 1 + 1 * 0 = 0; omega
    | ⟨1, _⟩ => show win2_3.index t (1 : Fin 2) * 128 + 1 * q.val = q.val; omega

/-- What point t writes back to the second result is the same strip. -/
theorem flushed5_eq (c : Dev nD) (t : Fin cfg2.N) :
    (dat2 (F := Ideal) V c).flushed 5 t = ((cfg2.win 5).blk t).view.read (Elt Ideal)
      (hid (V c main_v13_0 : Mat 10000 10000) (V c main_v13_2 : Mat 10000 128) (V c main_v13_1 : Mat 10000 128) (V c main_v16 : Mat 1 128)) := by
  show (cfg2.win 5).cut (grid2.coords t) ((dat2 V c).after 5 t) = _
  rw [after2_5]
  unfold out2_5
  rw [View.canon_unit_zero hz]
  simp only [View.ld_unit_zero (S := S1000x10000) hz, View.ld_unit_zero (S := S10000x128) hz,
    View.ld_unit_zero (S := S1000x128) hz, View.ld_unit_zero (S := S1x128) hz]
  obtain ⟨e00, e01, e10, e11, e20, e21, e30, e31, e40, e41, e50, e51⟩ := idx_facts t
  have hN : t.val < 10 := lt_of_lt_of_eq t.isLt N_2
  funext j
  obtain ⟨p, q, rfl⟩ : ∃ (p : Fin 1000) (q : Fin 128), j = ix2 p q := ⟨j 0, j 1, eq_ix2 j⟩
  refine (pay2_apply _ _ _ _ p q).trans ?_
  -- the row of the whole array that entry p of strip t is
  have hp : p.val < 1000 := p.isLt
  have hr : t.val * 1000 + p.val < 10000 := by omega
  -- an entry of a block sits, on each axis, at block index × block size + 1 × its coordinate in the block
  refine hid_at (V c main_v13_0) (V c main_v13_2) (V c main_v13_1) (V c main_v16)
    (((cfg2.win 2).blk t).view.emb (ix2 p q)) (((cfg2.win 5).blk t).view.emb (ix2 p q))
    (fun k => ((cfg2.win 0).blk t).view.emb (ix2 p k)) (fun k => ((cfg2.win 1).blk t).view.emb (ix2 k q))
    (((cfg2.win 3).blk t).view.emb (ix2 (0 : Fin 1) q)) ⟨t.val * 1000 + p.val, hr⟩ q ?_ ?_ (fun k => ?_) (fun k => ?_) ?_
  · funext a; apply Fin.ext
    match a with
    | ⟨0, _⟩ => show win2_5.index t (0 : Fin 2) * 1000 + 1 * p.val = t.val * 1000 + p.val; omega
    | ⟨1, _⟩ => show win2_5.index t (1 : Fin 2) * 128 + 1 * q.val = q.val; omega
  · funext a; apply Fin.ext
    match a with
    | ⟨0, _⟩ => show win2_2.index t (0 : Fin 2) * 1000 + 1 * p.val = t.val * 1000 + p.val; omega
    | ⟨1, _⟩ => show win2_2.index t (1 : Fin 2) * 128 + 1 * q.val = q.val; omega
  · funext a; apply Fin.ext
    match a with
    | ⟨0, _⟩ => show win2_0.index t (0 : Fin 2) * 1000 + 1 * p.val = t.val * 1000 + p.val; omega
    | ⟨1, _⟩ => show win2_0.index t (1 : Fin 2) * 10000 + 1 * k.val = k.val; omega
  · funext a; apply Fin.ext
    match a with
    | ⟨0, _⟩ => show win2_1.index t (0 : Fin 2) * 10000 + 1 * k.val = k.val; omega
    | ⟨1, _⟩ => show win2_1.index t (1 : Fin 2) * 128 + 1 * q.val = q.val; omega
  · funext a; apply Fin.ext
    match a with
    | ⟨0, _⟩ => show win2_3.index t (0 : Fin 2) * 1 + 1 * 0 = 0; omega
    | ⟨1, _⟩ => show win2_3.index t (1 : Fin 2) * 128 + 1 * q.val = q.val; omega

/-- An index of the array is in point t's block of window 4 iff each coordinate is in the block's range on its axis. -/
theorem mem_blk4 (t : Fin cfg2.N) (i : S10000x128.Idx) :
    i ∈ ((cfg2.win 4).blk t).view.set ↔ ∀ a : Fin 2, win2_4.index t a * S1000x128.size a ≤ (i a).val
      ∧ (i a).val < win2_4.index t a * S1000x128.size a + S1000x128.size a := by
  show i ∈ ((View.whole main_v17_0).slice (win2_4.rect t)).set ↔ _
  rw [View.set_slice_whole, Rect.mem_set_unit]
  exact Iff.rfl

/-- The strips tile the array: row r lies in the block of point r / 1000, and every point writes back. -/
theorem cover4 (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hlt : (i 0).val / 1000 < cfg2.N := lt_of_lt_of_eq (by omega) N_2.symm
  obtain ⟨e00, e01, e10, e11, e20, e21, e30, e31, e40, e41, e50, e51⟩ := idx_facts ⟨(i 0).val / 1000, hlt⟩
  refine ⟨⟨(i 0).val / 1000, hlt⟩, flush2_4 _, ?_⟩
  rw [mem_blk4]
  intro a
  match a with
  | ⟨0, _⟩ =>
    show win2_4.index ⟨(i 0).val / 1000, hlt⟩ (0 : Fin 2) * 1000 ≤ (i 0).val
      ∧ (i 0).val < win2_4.index ⟨(i 0).val / 1000, hlt⟩ (0 : Fin 2) * 1000 + 1000
    rw [e40]
    show (i 0).val / 1000 * 1000 ≤ (i 0).val ∧ (i 0).val < (i 0).val / 1000 * 1000 + 1000
    omega
  | ⟨1, _⟩ =>
    show win2_4.index ⟨(i 0).val / 1000, hlt⟩ (1 : Fin 2) * 128 ≤ (i 1).val
      ∧ (i 1).val < win2_4.index ⟨(i 0).val / 1000, hlt⟩ (1 : Fin 2) * 128 + 128
    rw [e41]
    omega

/-- An index of the array is in point t's block of window 5 iff each coordinate is in the block's range on its axis. -/
theorem mem_blk5 (t : Fin cfg2.N) (i : S10000x128.Idx) :
    i ∈ ((cfg2.win 5).blk t).view.set ↔ ∀ a : Fin 2, win2_5.index t a * S1000x128.size a ≤ (i a).val
      ∧ (i a).val < win2_5.index t a * S1000x128.size a + S1000x128.size a := by
  show i ∈ ((View.whole main_v17_1).slice (win2_5.rect t)).set ↔ _
  rw [View.set_slice_whole, Rect.mem_set_unit]
  exact Iff.rfl

/-- The strips tile the array: row r lies in the block of point r / 1000, and every point writes back. -/
theorem cover5 (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  have hlt : (i 0).val / 1000 < cfg2.N := lt_of_lt_of_eq (by omega) N_2.symm
  obtain ⟨e00, e01, e10, e11, e20, e21, e30, e31, e40, e41, e50, e51⟩ := idx_facts ⟨(i 0).val / 1000, hlt⟩
  refine ⟨⟨(i 0).val / 1000, hlt⟩, flush2_5 _, ?_⟩
  rw [mem_blk5]
  intro a
  match a with
  | ⟨0, _⟩ =>
    show win2_5.index ⟨(i 0).val / 1000, hlt⟩ (0 : Fin 2) * 1000 ≤ (i 0).val
      ∧ (i 0).val < win2_5.index ⟨(i 0).val / 1000, hlt⟩ (0 : Fin 2) * 1000 + 1000
    rw [e50]
    show (i 0).val / 1000 * 1000 ≤ (i 0).val ∧ (i 0).val < (i 0).val / 1000 * 1000 + 1000
    omega
  | ⟨1, _⟩ =>
    show win2_5.index ⟨(i 0).val / 1000, hlt⟩ (1 : Fin 2) * 128 ≤ (i 1).val
      ∧ (i 1).val < win2_5.index ⟨(i 0).val / 1000, hlt⟩ (1 : Fin 2) * 128 + 128
    rw [e51]
    omega

/-! ## The arrays after the region -/

/-- The step's features. -/
theorem arr_o32 (c : Dev nD) :
    (dat2 (F := Ideal) V c).arrAt 4 cfg2.N
      = hid (V c main_v13_0 : Mat 10000 10000) (V c main_v13_2 : Mat 10000 128) (V c main_v13_1 : Mat 10000 128) (V c main_v16 : Mat 1 128) :=
  (dat2 V c).arrAt_eq_of_cover 4 _ (fun t _ => flushed4_eq V c t) cover4

/-- Their second copy. -/
theorem arr_o16 (c : Dev nD) :
    (dat2 (F := Ideal) V c).arrAt 5 cfg2.N
      = hid (V c main_v13_0 : Mat 10000 10000) (V c main_v13_2 : Mat 10000 128) (V c main_v13_1 : Mat 10000 128) (V c main_v16 : Mat 1 128) :=
  (dat2 V c).arrAt_eq_of_cover 5 _ (fun t _ => flushed5_eq V c t) cover5

end Cert.AdaGnn.Region2

end
-- ==== Proof.Region3.lean ====
/-
  The last hidden step, fused with the projection for the output layer. Each of the ten grid points forms the strip's
  rows of h' = relu(h − (L · h) · d) as the hidden step does, and writes U = h' · (row-scaled W2) and
  V = h' · W2 + bias. The strips tile both result arrays.
-/
import proofs.«174973_g47665547051069_cont_8to1c4_396_5_alg».proof.Proof.Gen.KernelIdeal.Frame
import proofs.«174973_g47665547051069_cont_8to1c4_396_5_alg».proof.Proof.Layers
import proofs.«174973_g47665547051069_cont_8to1c4_396_5_alg».proof.Proof.LibPlainDot
import Idealize.ShloMosaic.Lib.Pipeline.Value

noncomputable section

namespace Cert.AdaGnn.Region3

open Idealize.ShloMosaic Idealize.ShloMosaic.TcCoe Idealize.ShloMosaic.ValueIdx Idealize.SL.Sem
open Cert.KernelIdeal Cert.KernelIdeal.Gen Cert.AdaGnn

/-! ## The body's values at an entry -/

/-- The hidden step's value at entry (p, j) of a strip: the strip's row p of the operator's copy against column j of
    the whole second copy of the features, times the diagonal row's entry j, taken off the strip's own entry and
    clipped at zero. The casts to the same shape are identities, the row is broadcast along the rows, the product
    is the plain row-by-column sum. -/
theorem pay1_apply (x0 : Vec Ideal S1000x10000 .bf16) (x1 : Vec Ideal S10000x128 .bf16) (x2 : Vec Ideal S1000x128 .f32)
    (x3 : Vec Ideal S1x128 .f32) (p : Fin 1000) (j : Fin 128) :
    k3_pay1 (F := Ideal) x0 x1 x2 x3 (ix2 p j)
      = max (x2 (ix2 p j) - (∑ k : Fin 10000, x0 (ix2 p k) * x1 (ix2 k j)) * x3 (ix2 0 j)) w0 := by
  have hdot : Idealize.ShloMosaic.matmul (F := Ideal) (φ₁ := .bf16) (φ₂ := .bf16) dot_S1000x10000_S10000x128_S1000x128_1_0_0_1_n_n none x0 x1
        (constant (F := Ideal) S1000x128 .f32 0x00000000#32) (ix2 p j)
      = ∑ k : Fin 10000, x0 (ix2 p k) * x1 (ix2 k j) :=
    PlainDot.matmul_zero_apply (d := dot_S1000x10000_S10000x128_S1000x128_1_0_0_1_n_n) (φ₁ := .bf16) (φ₂ := .bf16)
      ⟨rfl, rfl, rfl, rfl, rfl, rfl⟩ none x0 x1 p j
  have hrow : broadcastTo S1000x128 x3 broadcasts_S1x128_S1000x128 (ix2 p j) = x3 (ix2 0 j) :=
    broadcastTo_apply x3 broadcasts_S1x128_S1000x128 (ix2 p j) (ix2 0 j) (fun a => by
      match a with
      | ⟨0, _⟩ => rfl
      | ⟨1, _⟩ => rfl)
  unfold k3_pay1
  simp only [shapeCast_self]
  rw [maximumf_apply, subf_apply, mulf_apply, broadcast_apply, hdot, hrow]
  rfl

/-- The first stored value at entry (p, q): row p of the hidden step's strip against column q of the row-scaled
    weights; the narrowing is the identity on the extended reals. -/
theorem pay2_apply (x0 : Vec Ideal S1000x10000 .bf16) (x1 : Vec Ideal S10000x128 .bf16) (x2 : Vec Ideal S1000x128 .f32)
    (x3 : Vec Ideal S1x128 .f32) (x5 : Vec Ideal S128x64 .f32) (p : Fin 1000) (q : Fin 64) :
    k3_pay2 (F := Ideal) x0 x1 x2 x3 x5 (ix2 p q)
      = ∑ j : Fin 128, max (x2 (ix2 p j) - (∑ k : Fin 10000, x0 (ix2 p k) * x1 (ix2 k j)) * x3 (ix2 0 j)) w0 * x5 (ix2 j q) := by
  have hdot : Idealize.ShloMosaic.matmul (F := Ideal) (φ₁ := .f32) (φ₂ := .f32) dot_S1000x128_S128x64_S1000x64_1_0_0_1_n_n none
        (k3_pay1 (F := Ideal) x0 x1 x2 x3) x5 (constant (F := Ideal) S1000x64 .f32 0x00000000#32) (ix2 p q)
      = ∑ j : Fin 128, k3_pay1 (F := Ideal) x0 x1 x2 x3 (ix2 p j) * x5 (ix2 j q) :=
    PlainDot.matmul_zero_apply (d := dot_S1000x128_S128x64_S1000x64_1_0_0_1_n_n) (φ₁ := .f32) (φ₂ := .f32)
      ⟨rfl, rfl, rfl, rfl, rfl, rfl⟩ none (k3_pay1 (F := Ideal) x0 x1 x2 x3) x5 p q
  unfold k3_pay2
  simp only [shapeCast_self]
  rw [truncf_apply, hdot]
  exact Finset.sum_congr rfl fun j _ => by rw [pay1_apply]

/-- The second stored value at entry (p, q): row p of the hidden step's strip against column q of the weights, plus
    the bias row's entry q (the row is broadcast along the rows). -/
theorem pay3_apply (x0 : Vec Ideal S1000x10000 .bf16) (x1 : Vec Ideal S10000x128 .bf16) (x2 : Vec Ideal S1000x128 .f32)
    (x3 : Vec Ideal S1x128 .f32) (x4 : Vec Ideal S128x64 .f32) (x6 : Vec Ideal S1x64 .f32) (p : Fin 1000) (q : Fin 64) :
    k3_pay3 (F := Ideal) x0 x1 x2 x3 x4 x6 (ix2 p q)
      = (∑ j : Fin 128, max (x2 (ix2 p j) - (∑ k : Fin 10000, x0 (ix2 p k) * x1 (ix2 k j)) * x3 (ix2 0 j)) w0 * x4 (ix2 j q))
        + x6 (ix2 0 q) := by
  have hdot : Idealize.ShloMosaic.matmul (F := Ideal) (φ₁ := .f32) (φ₂ := .f32) dot_S1000x128_S128x64_S1000x64_1_0_0_1_n_n none
        (k3_pay1 (F := Ideal) x0 x1 x2 x3) x4 (constant (F := Ideal) S1000x64 .f32 0x00000000#32) (ix2 p q)
      = ∑ j : Fin 128, k3_pay1 (F := Ideal) x0 x1 x2 x3 (ix2 p j) * x4 (ix2 j q) :=
    PlainDot.matmul_zero_apply (d := dot_S1000x128_S128x64_S1000x64_1_0_0_1_n_n) (φ₁ := .f32) (φ₂ := .f32)
      ⟨rfl, rfl, rfl, rfl, rfl, rfl⟩ none (k3_pay1 (F := Ideal) x0 x1 x2 x3) x4 p q
  have hrow : broadcastTo S1000x64 x6 broadcasts_S1x64_S1000x64 (ix2 p q) = x6 (ix2 0 q) :=
    broadcastTo_apply x6 broadcasts_S1x64_S1000x64 (ix2 p q) (ix2 0 q) (fun a => by
      match a with
      | ⟨0, _⟩ => rfl
      | ⟨1, _⟩ => rfl)
  unfold k3_pay3
  simp only [shapeCast_self]
  rw [addf_apply, hdot, hrow]
  exact congrArg (· + x6 (ix2 0 q)) (Finset.sum_congr rfl fun j _ => by rw [pay1_apply])

/-- Entry (r, q) of the hidden step's array times a [128, 64] matrix, from entries read at indices that are known
    to be (r, j) of the features, (r, k) of the operator's copy, (k, j) of the second copy, (0, j) of the row and
    (j, q) of the matrix. -/
theorem mm_hid_at (L : Mat 10000 10000) (h16 h32 : Mat 10000 128) (dr : Mat 1 128) (W : Mat 128 64)
    (i2 : Fin 128 → S10000x128.Idx) (i0 : Fin 10000 → S10000x10000.Idx) (i1 : Fin 10000 → Fin 128 → S10000x128.Idx)
    (i3 : Fin 128 → S1x128.Idx) (iw : Fin 128 → S128x64.Idx) (io : S10000x64.Idx) (r : Fin 10000) (q : Fin 64)
    (ho : io = ix2 r q) (h2 : ∀ j, i2 j = ix2 r j) (h0 : ∀ k, i0 k = ix2 r k) (h1 : ∀ k j, i1 k j = ix2 k j)
    (h3 : ∀ j, i3 j = ix2 0 j) (hw : ∀ j, iw j = ix2 j q) :
    (∑ j : Fin 128, max (h32 (i2 j) - (∑ k : Fin 10000, L (i0 k) * h16 (i1 k j)) * dr (i3 j)) w0 * W (iw j))
      = mm (hid L h16 h32 dr) W io := by
  subst ho
  obtain rfl : i2 = fun j => ix2 r j := funext h2
  obtain rfl : i0 = fun k => ix2 r k := funext h0
  obtain rfl : i1 = fun k j => ix2 k j := funext fun k => funext (h1 k)
  obtain rfl : i3 = fun j => ix2 0 j := funext h3
  obtain rfl : iw = fun j => ix2 j q := funext hw
  rfl

/-- The same with a [1, 64] row added, its entry read at an index known to be (0, q). -/
theorem mmBias_hid_at (L : Mat 10000 10000) (h16 h32 : Mat 10000 128) (dr : Mat 1 128) (W : Mat 128 64) (b : Mat 1 64)
    (i2 : Fin 128 → S10000x128.Idx) (i0 : Fin 10000 → S10000x10000.Idx) (i1 : Fin 10000 → Fin 128 → S10000x128.Idx)
    (i3 : Fin 128 → S1x128.Idx) (iw : Fin 128 → S128x64.Idx) (ib : S1x64.Idx) (io : S10000x64.Idx) (r : Fin 10000) (q : Fin 64)
    (ho : io = ix2 r q) (h2 : ∀ j, i2 j = ix2 r j) (h0 : ∀ k, i0 k = ix2 r k) (h1 : ∀ k j, i1 k j = ix2 k j)
    (h3 : ∀ j, i3 j = ix2 0 j) (hw : ∀ j, iw j = ix2 j q) (hb : ib = ix2 0 q) :
    (∑ j : Fin 128, max (h32 (i2 j) - (∑ k : Fin 10000, L (i0 k) * h16 (i1 k j)) * dr (i3 j)) w0 * W (iw j)) + b ib
      = mmBias (hid L h16 h32 dr) W b io := by
  subst hb
  rw [mm_hid_at L h16 h32 dr W i2 i0 i1 i3 iw io r q ho h2 h0 h1 h3 hw]
  subst ho
  rfl

/-! ## The windows' blocks -/

theorem hz : (![0, 0] : Fin 2 → Nat) = fun _ => 0 := funext fun a => by fin_cases a <;> rfl

/-- The block indices of the nine windows at a grid point: the strips (windows 0, 2, 7, 8) are at the point's number
    along the rows, the whole arrays (windows 1, 3, 4, 5, 6) at zero; every window is at zero along the columns. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

variable (V : (c : Dev nD) → (b : Ref sig .tc) → Buf (Elt Ideal) ((c : Thread nD τ).loc b))

/-- What point t writes back to U is strip t of the hidden step times the row-scaled weights, of the arrays as the
    region finds them. -/
theorem flushed7_eq (c : Dev nD) (t : Fin cfg3.N) :
    (dat3 (F := Ideal) V c).flushed 7 t = ((cfg3.win 7).blk t).view.read (Elt Ideal)
      (mm (hid (V c main_v13_0 : Mat 10000 10000) (V c main_v17_1 : Mat 10000 128) (V c main_v17_0 : Mat 10000 128) (V c main_v20 : Mat 1 128))
        (V c main_v9 : Mat 128 64)) := by
  show (cfg3.win 7).cut (grid3.coords t) ((dat3 V c).after 7 t) = _
  rw [after3_7]
  unfold out3_7
  rw [View.canon_unit_zero hz]
  simp only [View.ld_unit_zero (S := S1000x10000) hz, View.ld_unit_zero (S := S10000x128) hz,
    View.ld_unit_zero (S := S1000x128) hz, View.ld_unit_zero (S := S1x128) hz, View.ld_unit_zero (S := S128x64) hz,
    View.ld_unit_zero (S := S1x64) hz]
  obtain ⟨e00, e01, e10, e11, e20, e21, e30, e31, e40, e41, e50, e51, e60, e61, e70, e71, e80, e81⟩ := idx_facts t
  have hN : t.val < 10 := lt_of_lt_of_eq t.isLt N_3
  funext y
  obtain ⟨p, q, rfl⟩ : ∃ (p : Fin 1000) (q : Fin 64), y = ix2 p q := ⟨y 0, y 1, eq_ix2 y⟩
  refine (pay2_apply _ _ _ _ _ p q).trans ?_
  -- the row of the whole array that entry p of strip t is
  have hp : p.val < 1000 := p.isLt
  have hr : t.val * 1000 + p.val < 10000 := by omega
  -- an entry of a block sits, on each axis, at block index × block size + 1 × its coordinate in the block
  refine mm_hid_at (V c main_v13_0) (V c main_v17_1) (V c main_v17_0) (V c main_v20) (V c main_v9)
    (fun j => ((cfg3.win 2).blk t).view.emb (ix2 p j)) (fun k => ((cfg3.win 0).blk t).view.emb (ix2 p k))
    (fun k j => ((cfg3.win 1).blk t).view.emb (ix2 k j)) (fun j => ((cfg3.win 3).blk t).view.emb (ix2 (0 : Fin 1) j))
    (fun j => ((cfg3.win 5).blk t).view.emb (ix2 j q)) (((cfg3.win 7).blk t).view.emb (ix2 p q))
    ⟨t.val * 1000 + p.val, hr⟩ q ?_ (fun j => ?_) (fun k => ?_) (fun k j => ?_) (fun j => ?_) (fun j => ?_)
  · funext a; apply Fin.ext
    match a with
    | ⟨0, _⟩ => show win3_7.index t (0 : Fin 2) * 1000 + 1 * p.val = t.val * 1000 + p.val; omega
    | ⟨1, _⟩ => show win3_7.index t (1 : Fin 2) * 64 + 1 * q.val = q.val; omega
  · funext a; apply Fin.ext
    match a with
    | ⟨0, _⟩ => show win3_2.index t (0 : Fin 2) * 1000 + 1 * p.val = t.val * 1000 + p.val; omega
    | ⟨1, _⟩ => show win3_2.index t (1 : Fin 2) * 128 + 1 * j.val = j.val; omega
  · funext a; apply Fin.ext
    match a with
    | ⟨0, _⟩ => show win3_0.index t (0 : Fin 2) * 1000 + 1 * p.val = t.val * 1000 + p.val; omega
    | ⟨1, _⟩ => show win3_0.index t (1 : Fin 2) * 10000 + 1 * k.val = k.val; omega
  · funext a; apply Fin.ext
    match a with
    | ⟨0, _⟩ => show win3_1.index t (0 : Fin 2) * 10000 + 1 * k.val = k.val; omega
    | ⟨1, _⟩ => show win3_1.index t (1 : Fin 2) * 128 + 1 * j.val = j.val; omega
  · funext a; apply Fin.ext
    match a with
    | ⟨0, _⟩ => show win3_3.index t (0 : Fin 2) * 1 + 1 * 0 = 0; omega
    | ⟨1, _⟩ => show win3_3.index t (1 : Fin 2) * 128 + 1 * j.val = j.val; omega
  · funext a; apply Fin.ext
    match a with
    | ⟨0, _⟩ => show win3_5.index t (0 : Fin 2) * 128 + 1 * j.val = j.val; omega
    | ⟨1, _⟩ => show win3_5.index t (1 : Fin 2) * 64 + 1 * q.val = q.val; omega

/-- What point t writes back to V is strip t of the hidden step times the weights plus the bias row. -/
theorem flushed8_eq (c : Dev nD) (t : Fin cfg3.N) :
    (dat3 (F := Ideal) V c).flushed 8 t = ((cfg3.win 8).blk t).view.read (Elt Ideal)
      (mmBias (hid (V c main_v13_0 : Mat 10000 10000) (V c main_v17_1 : Mat 10000 128) (V c main_v17_0 : Mat 10000 128) (V c main_v20 : Mat 1 128))
        (V c main_arg6 : Mat 128 64) (V c main_v11 : Mat 1 64)) := by
  show (cfg3.win 8).cut (grid3.coords t) ((dat3 V c).after 8 t) = _
  rw [after3_8]
  unfold out3_8
  rw [View.canon_unit_zero hz]
  simp only [View.ld_unit_zero (S := S1000x10000) hz, View.ld_unit_zero (S := S10000x128) hz,
    View.ld_unit_zero (S := S1000x128) hz, View.ld_unit_zero (S := S1x128) hz, View.ld_unit_zero (S := S128x64) hz,
    View.ld_unit_zero (S := S1x64) hz]
  obtain ⟨e00, e01, e10, e11, e20, e21, e30, e31, e40, e41, e50, e51, e60, e61, e70, e71, e80, e81⟩ := idx_facts t
  have hN : t.val < 10 := lt_of_lt_of_eq t.isLt N_3
  funext y
  obtain ⟨p, q, rfl⟩ : ∃ (p : Fin 1000) (q : Fin 64), y = ix2 p q := ⟨y 0, y 1, eq_ix2 y⟩
  refine (pay3_apply _ _ _ _ _ _ p q).trans ?_
  -- the row of the whole array that entry p of strip t is
  have hp : p.val < 1000 := p.isLt
  have hr : t.val * 1000 + p.val < 10000 := by omega
  -- an entry of a block sits, on each axis, at block index × block size + 1 × its coordinate in the block
  refine mmBias_hid_at (V c main_v13_0) (V c main_v17_1) (V c main_v17_0) (V c main_v20) (V c main_arg6) (V c main_v11)
    (fun j => ((cfg3.win 2).blk t).view.emb (ix2 p j)) (fun k => ((cfg3.win 0).blk t).view.emb (ix2 p k))
    (fun k j => ((cfg3.win 1).blk t).view.emb (ix2 k j)) (fun j => ((cfg3.win 3).blk t).view.emb (ix2 (0 : Fin 1) j))
    (fun j => ((cfg3.win 4).blk t).view.emb (ix2 j q)) (((cfg3.win 6).blk t).view.emb (ix2 (0 : Fin 1) q))
    (((cfg3.win 8).blk t).view.emb (ix2 p q))
    ⟨t.val * 1000 + p.val, hr⟩ q ?_ (fun j => ?_) (fun k => ?_) (fun k j => ?_) (fun j => ?_) (fun j => ?_) ?_
  · funext a; apply Fin.ext
    match a with
    | ⟨0, _⟩ => show win3_8.index t (0 : Fin 2) * 1000 + 1 * p.val = t.val * 1000 + p.val; omega
    | ⟨1, _⟩ => show win3_8.index t (1 : Fin 2) * 64 + 1 * q.val = q.val; omega
  · funext a; apply Fin.ext
    match a with
    | ⟨0, _⟩ => show win3_2.index t (0 : Fin 2) * 1000 + 1 * p.val = t.val * 1000 + p.val; omega
    | ⟨1, _⟩ => show win3_2.index t (1 : Fin 2) * 128 + 1 * j.val = j.val; omega
  · funext a; apply Fin.ext
    match a with
    | ⟨0, _⟩ => show win3_0.index t (0 : Fin 2) * 1000 + 1 * p.val = t.val * 1000 + p.val; omega
    | ⟨1, _⟩ => show win3_0.index t (1 : Fin 2) * 10000 + 1 * k.val = k.val; omega
  · funext a; apply Fin.ext
    match a with
    | ⟨0, _⟩ => show win3_1.index t (0 : Fin 2) * 10000 + 1 * k.val = k.val; omega
    | ⟨1, _⟩ => show win3_1.index t (1 : Fin 2) * 128 + 1 * j.val = j.val; omega
  · funext a; apply Fin.ext
    match a with
    | ⟨0, _⟩ => show win3_3.index t (0 : Fin 2) * 1 + 1 * 0 = 0; omega
    | ⟨1, _⟩ => show win3_3.index t (1 : Fin 2) * 128 + 1 * j.val = j.val; omega
  · funext a; apply Fin.ext
    match a with
    | ⟨0, _⟩ => show win3_4.index t (0 : Fin 2) * 128 + 1 * j.val = j.val; omega
    | ⟨1, _⟩ => show win3_4.index t (1 : Fin 2) * 64 + 1 * q.val = q.val; omega
  · funext a; apply Fin.ext
    match a with
    | ⟨0, _⟩ => show win3_6.index t (0 : Fin 2) * 1 + 1 * 0 = 0; omega
    | ⟨1, _⟩ => show win3_6.index t (1 : Fin 2) * 64 + 1 * q.val = q.val; omega

/-- An index of the array is in point t's block of window 7 iff each coordinate is in the block's range on its axis. -/
theorem mem_blk7 (t : Fin cfg3.N) (i : S10000x64.Idx) :
    i ∈ ((cfg3.win 7).blk t).view.set ↔ ∀ a : Fin 2, win3_7.index t a * S1000x64.size a ≤ (i a).val
      ∧ (i a).val < win3_7.index t a * S1000x64.size a + S1000x64.size a := by
  show i ∈ ((View.whole main_v21_0).slice (win3_7.rect t)).set ↔ _
  rw [View.set_slice_whole, Rect.mem_set_unit]
  exact Iff.rfl

/-- The strips tile the array: row r lies in the block of point r / 1000, and every point writes back. -/
theorem cover7 (i : S10000x64.Idx) :
    ∃ t : Fin cfg3.N, (cfg3.win 7).flush t = true ∧ i ∈ ((cfg3.win 7).blk t).view.set := by
  have hi0 : (i 0).val < 10000 := (i 0).isLt
  have hi1 : (i 1).val < 64 := (i 1).isLt
  have hlt : (i 0).val / 1000 < cfg3.N := lt_of_lt_of_eq (by omega) N_3.symm
  obtain ⟨e00, e01, e10, e11, e20, e21, e30, e31, e40, e41, e50, e51, e60, e61, e70, e71, e80, e81⟩ :=
    idx_facts ⟨(i 0).val / 1000, hlt⟩
  refine ⟨⟨(i 0).val / 1000, hlt⟩, flush3_7 _, ?_⟩
  rw [mem_blk7]
  intro a
  match a with
  | ⟨0, _⟩ =>
    show win3_7.index ⟨(i 0).val / 1000, hlt⟩ (0 : Fin 2) * 1000 ≤ (i 0).val
      ∧ (i 0).val < win3_7.index ⟨(i 0).val / 1000, hlt⟩ (0 : Fin 2) * 1000 + 1000
    rw [e70]
    show (i 0).val / 1000 * 1000 ≤ (i 0).val ∧ (i 0).val < (i 0).val / 1000 * 1000 + 1000
    omega
  | ⟨1, _⟩ =>
    show win3_7.index ⟨(i 0).val / 1000, hlt⟩ (1 : Fin 2) * 64 ≤ (i 1).val
      ∧ (i 1).val < win3_7.index ⟨(i 0).val / 1000, hlt⟩ (1 : Fin 2) * 64 + 64
    rw [e71]
    omega

/-- An index of the array is in point t's block of window 8 iff each coordinate is in the block's range on its axis. -/
theorem mem_blk8 (t : Fin cfg3.N) (i : S10000x64.Idx) :
    i ∈ ((cfg3.win 8).blk t).view.set ↔ ∀ a : Fin 2, win3_8.index t a * S1000x64.size a ≤ (i a).val
      ∧ (i a).val < win3_8.index t a * S1000x64.size a + S1000x64.size a := by
  show i ∈ ((View.whole main_v21_1).slice (win3_8.rect t)).set ↔ _
  rw [View.set_slice_whole, Rect.mem_set_unit]
  exact Iff.rfl

/-- The strips tile the array: row r lies in the block of point r / 1000, and every point writes back. -/
theorem cover8 (i : S10000x64.Idx) :
    ∃ t : Fin cfg3.N, (cfg3.win 8).flush t = true ∧ i ∈ ((cfg3.win 8).blk t).view.set := by
  have hi0 : (i 0).val < 10000 := (i 0).isLt
  have hi1 : (i 1).val < 64 := (i 1).isLt
  have hlt : (i 0).val / 1000 < cfg3.N := lt_of_lt_of_eq (by omega) N_3.symm
  obtain ⟨e00, e01, e10, e11, e20, e21, e30, e31, e40, e41, e50, e51, e60, e61, e70, e71, e80, e81⟩ :=
    idx_facts ⟨(i 0).val / 1000, hlt⟩
  refine ⟨⟨(i 0).val / 1000, hlt⟩, flush3_8 _, ?_⟩
  rw [mem_blk8]
  intro a
  match a with
  | ⟨0, _⟩ =>
    show win3_8.index ⟨(i 0).val / 1000, hlt⟩ (0 : Fin 2) * 1000 ≤ (i 0).val
      ∧ (i 0).val < win3_8.index ⟨(i 0).val / 1000, hlt⟩ (0 : Fin 2) * 1000 + 1000
    rw [e80]
    show (i 0).val / 1000 * 1000 ≤ (i 0).val ∧ (i 0).val < (i 0).val / 1000 * 1000 + 1000
    omega
  | ⟨1, _⟩ =>
    show win3_8.index ⟨(i 0).val / 1000, hlt⟩ (1 : Fin 2) * 64 ≤ (i 1).val
      ∧ (i 1).val < win3_8.index ⟨(i 0).val / 1000, hlt⟩ (1 : Fin 2) * 64 + 64
    rw [e81]
    omega

/-! ## The arrays after the region -/

/-- The array of U after the region. -/
theorem arr_u (c : Dev nD) :
    (dat3 (F := Ideal) V c).arrAt 7 cfg3.N
      = mm (hid (V c main_v13_0 : Mat 10000 10000) (V c main_v17_1 : Mat 10000 128) (V c main_v17_0 : Mat 10000 128) (V c main_v20 : Mat 1 128))
          (V c main_v9 : Mat 128 64) :=
  (dat3 V c).arrAt_eq_of_cover 7 _ (fun t _ => flushed7_eq V c t) cover7

/-- The array of V after the region. -/
theorem arr_v (c : Dev nD) :
    (dat3 (F := Ideal) V c).arrAt 8 cfg3.N
      = mmBias (hid (V c main_v13_0 : Mat 10000 10000) (V c main_v17_1 : Mat 10000 128) (V c main_v17_0 : Mat 10000 128) (V c main_v20 : Mat 1 128))
          (V c main_arg6 : Mat 128 64) (V c main_v11 : Mat 1 64) :=
  (dat3 V c).arrAt_eq_of_cover 8 _ (fun t _ => flushed8_eq V c t) cover8

end Cert.AdaGnn.Region3

end
-- ==== Proof.Region4.lean ====
/-
  The last region. Its three entry arrays are the operator L (10000 × 10000), U (10000 × 64) and V (10000 × 64); each
  grid point takes a strip of 1000 rows of L and of V and all of U, forms the logits relu(V − L·U) of those rows, and
  writes the rows' log-softmax, grouped as z − (log S + M) with M the row's maximum and S the row's sum of exp(z − M).
  The ten strips tile the result array, so it ends holding that function of the whole entry arrays.
-/
import proofs.«174973_g47665547051069_cont_8to1c4_396_5_alg».proof.Proof.Gen.KernelIdeal.Frame
import proofs.«174973_g47665547051069_cont_8to1c4_396_5_alg».proof.Proof.Layers
import proofs.«174973_g47665547051069_cont_8to1c4_396_5_alg».proof.Proof.LibPlainDot
import Idealize.ShloMosaic.Lib.Pipeline.Value

noncomputable section

namespace Cert.AdaGnn.Region4

open Idealize.ShloMosaic Idealize.ShloMosaic.TcCoe Idealize.ShloMosaic.ValueIdx Idealize.SL.Sem
open Cert.KernelIdeal Cert.KernelIdeal.Gen Cert.AdaGnn

variable (V : (c : Dev nD) → (b : Ref sig .tc) → Buf (Elt Ideal) ((c : Thread nD τ).loc b))

/-! ## The body's arithmetic at an entry -/

/-- The body's product contracts the left operand's columns with the right operand's rows, with no batch axis. -/
theorem plain : PlainDot.IsPlain dot_S1000x10000_S10000x64_S1000x64_1_0_0_1_n_n := ⟨rfl, rfl, rfl, rfl, rfl, rfl⟩

/-- The logits of a strip: V − L·U clipped at zero, entry by entry. The three same-shape casts are identities, the
    product into the zero accumulator is the sum over the 10000 columns of L, and the clip is the maximum with the
    word of 0 spread over the strip. -/
theorem logits_eq (x0 : FVec Ideal S1000x10000 .bf16) (x1 : FVec Ideal S10000x64 .bf16) (x2 : FVec Ideal S1000x64 .f32)
    (h0 : S1000x10000.ShapeCasts S1000x10000) (h1 : S10000x64.ShapeCasts S10000x64) (h2 : S1000x64.ShapeCasts S1000x64) :
    maximumf (subf (shapeCast S1000x64 x2 h2)
        (matmul dot_S1000x10000_S10000x64_S1000x64_1_0_0_1_n_n none (shapeCast S1000x10000 x0 h0) (shapeCast S10000x64 x1 h1)
          (constant (F := Ideal) S1000x64 .f32 0x00000000#32)))
      (broadcast S1000x64 (FloatOps.ofBits (F := Ideal) .f32 0x00000000#32))
      = clipSub (x2 : Mat 1000 64) (mm (x0 : Mat 1000 10000) (x1 : Mat 10000 64)) := by
  funext j
  obtain ⟨p, q, rfl⟩ : ∃ (p : Fin 1000) (q : Fin 64), j = ix2 p q := ⟨j 0, j 1, eq_ix2 j⟩
  rw [shapeCast_self, shapeCast_self, shapeCast_self, maximumf_apply, subf_apply, broadcast_apply]
  refine congrArg (fun e => max (x2 (ix2 p q) - e) _) ?_
  exact PlainDot.matmul_zero_apply plain none x0 x1 p q

/-- A [1000, 1] column spread along the 64 lanes reads, at (p, q), the column's entry (p, 0). -/
theorem spread_read {α : Type} (w : S1000x1.Idx → α) (hb : S1000x1.Broadcasts S1000x64) (p : Fin 1000) (q : Fin 64) :
    broadcastTo S1000x64 w hb (ix2 p q) = w (ix2 p (0 : Fin 1)) := by
  refine broadcastTo_apply w hb (ix2 p q) (ix2 p (0 : Fin 1)) fun a => ?_
  match a with
  | ⟨0, _⟩ => rfl
  | ⟨1, _⟩ => rfl

/-- A [1000] array kept as a [1000, 1] column reads, at (p, 0), the array's entry p: the two entries have the same
    row-major position p = p · 1 + 0. -/
theorem kept_read {α : Type} (v : S1000.Idx → α) (hc : S1000.ShapeCasts S1000x1) (p : Fin 1000) :
    shapeCast S1000x1 v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- Row p's index with lane k inserted on axis 1 is (p, k). -/
theorem lift_eq (h : S1000x64.Reduces [1] S1000) (p : Fin 1000) (k : Fin 64) : h.lift (ix1 p) k = ix2 p k :=
  funext fun a => Fin.ext (by match a with | ⟨0, _⟩ => rfl | ⟨1, _⟩ => rfl)

/-- The lane maximum at row p is the row's maximum folded from −∞ over the row's 64 entries. -/
theorem rowMax_read (z : FVec Ideal S1000x64 .f32) (h : S1000x64.Reduces [1] S1000) (hφ : FKind.Formats .f32)
    (hacc : (0xFF800000#32 : BitVec 32) = FKind.maximumf.neutral .f32 hφ) (p : Fin 1000) :
    multiReduction (F := Ideal) .maximumf [1] S1000 z 0xFF800000#32 h hφ hacc (ix1 p) = rowMax (z : Mat 1000 64) p := by
  refine (Ideal.multiReduction_maximumf_single z _ h hφ hacc (ix1 p)).trans ?_
  have e : (z ∘ h.lift (ix1 p)) = fun k : Fin 64 => z (ix2 p k) := funext fun k => congrArg z (lift_eq h p k)
  rw [e]
  rfl

/-- The lane sum at row p is the sum over the row's 64 entries. -/
theorem rowSum_read (y : FVec Ideal S1000x64 .f32) (h : S1000x64.Reduces [1] S1000) (hφ : FKind.Formats .f32)
    (hacc : (0x00000000#32 : BitVec 32) = FKind.add.neutral .f32 hφ) (p : Fin 1000) :
    multiReduction (F := Ideal) .add [1] S1000 y 0x00000000#32 h hφ hacc (ix1 p) = ∑ k : Fin 64, y (ix2 p k) := by
  refine (Ideal.multiReduction_add_single y _ h hφ hacc (ix1 p)).trans ?_
  exact Finset.sum_congr rfl fun k _ => congrArg y (lift_eq h p k)

/-- The body from its logits z on: entry (p, q) is z(p, q) − (log S + M), with M row p's maximum and S row p's sum of
    exp (z − M); both reductions are kept as columns and spread back along the lanes, so each reads its row's value. -/
theorem softmax_read (z : FVec Ideal S1000x64 .f32) (h : S1000x64.Reduces [1] S1000) (hφ : FKind.Formats .f32)
    (hmax : (0xFF800000#32 : BitVec 32) = FKind.maximumf.neutral .f32 hφ)
    (hadd : (0x00000000#32 : BitVec 32) = FKind.add.neutral .f32 hφ)
    (hc : S1000.ShapeCasts S1000x1) (hb : S1000x1.Broadcasts S1000x64) (p : Fin 1000) (q : Fin 64) :
    subf z (broadcastTo S1000x64
        (addf
          (log (shapeCast S1000x1
            (multiReduction (F := Ideal) .add [1] S1000
              (exp (subf z (broadcastTo S1000x64
                (shapeCast S1000x1 (multiReduction (F := Ideal) .maximumf [1] S1000 z 0xFF800000#32 h hφ hmax) hc) hb)))
              0x00000000#32 h hφ hadd) hc))
          (shapeCast S1000x1 (multiReduction (F := Ideal) .maximumf [1] S1000 z 0xFF800000#32 h hφ hmax) hc))
        hb) (ix2 p q)
      = logSoftmaxK (z : Mat 1000 64) (ix2 p q) := by
  rw [subf_apply, spread_read, addf_apply, kept_read, rowMax_read]
  refine congrArg (fun e => z (ix2 p q) - (e + rowMax (z : Mat 1000 64) p)) ?_
  show Ideal.log (shapeCast S1000x1 _ hc (ix2 p (0 : Fin 1))) = Ideal.log (rowSumExp (z : Mat 1000 64) p)
  rw [kept_read, rowSum_read]
  refine congrArg Ideal.log (Finset.sum_congr rfl fun k _ => ?_)
  show Ideal.exp (z (ix2 p k) - broadcastTo S1000x64 (shapeCast S1000x1 _ hc) hb (ix2 p k))
    = Ideal.exp (z (ix2 p k) - rowMax (z : Mat 1000 64) p)
  rw [spread_read, kept_read, rowMax_read]

/-- The body's stored value is the log-softmax, in the kernel's grouping, of the strip's logits. -/
theorem stored_eq (x0 : Vec Ideal S1000x10000 .bf16) (x1 : Vec Ideal S10000x64 .bf16) (x2 : Vec Ideal S1000x64 .f32) :
    k4_pay1 (F := Ideal) x0 x1 x2
      = logSoftmaxK (clipSub (x2 : Mat 1000 64) (mm (x0 : Mat 1000 10000) (x1 : Mat 10000 64))) := by
  funext j
  obtain ⟨p, q, rfl⟩ : ∃ (p : Fin 1000) (q : Fin 64), j = ix2 p q := ⟨j 0, j 1, eq_ix2 j⟩
  unfold k4_pay1
  dsimp only
  rw [logits_eq]
  exact softmax_read _ _ _ _ _ _ _ p q

/-! ## From the strips to the array -/

theorem zero_off : (![0, 0] : Fin 2 → Nat) = fun _ => 0 := funext fun a => by fin_cases a <;> rfl

/-- A row of the log-softmax of the clipped difference depends only on that row of V and of L, and on all of U: if row
    p of the strips b2, b0 is row P of the arrays A2, A0 and the right factors agree, the two rows of the result agree. -/
theorem strip_row {R R' K C : ℕ} (A0 : Mat R K) (A1 : Mat K C) (A2 : Mat R C) (b0 : Mat R' K) (b1 : Mat K C) (b2 : Mat R' C)
    (p : Fin R') (P : Fin R) (h0 : ∀ k, b0 (ix2 p k) = A0 (ix2 P k)) (h1 : b1 = A1)
    (h2 : ∀ k, b2 (ix2 p k) = A2 (ix2 P k)) (q : Fin C) :
    logSoftmaxK (clipSub b2 (mm b0 b1)) (ix2 p q) = logSoftmaxK (clipSub A2 (mm A0 A1)) (ix2 P q) := by
  subst h1
  have hz : ∀ k, clipSub b2 (mm b0 b1) (ix2 p k) = clipSub A2 (mm A0 b1) (ix2 P k) := fun k => by
    show max (b2 (ix2 p k) - mm b0 b1 (ix2 p k)) w0 = max (A2 (ix2 P k) - mm A0 b1 (ix2 P k)) w0
    rw [mm_apply, mm_apply, h2]
    simp only [h0]
  have hM : rowMax (clipSub b2 (mm b0 b1)) p = rowMax (clipSub A2 (mm A0 b1)) P := by
    unfold rowMax
    simp only [hz]
  show clipSub b2 (mm b0 b1) (ix2 p q) - (Ideal.log (rowSumExp (clipSub b2 (mm b0 b1)) p) + rowMax (clipSub b2 (mm b0 b1)) p)
    = clipSub A2 (mm A0 b1) (ix2 P q) - (Ideal.log (rowSumExp (clipSub A2 (mm A0 b1)) P) + rowMax (clipSub A2 (mm A0 b1)) P)
  unfold rowSumExp
  rw [hM]
  simp only [hz]

/-- The index maps over the grid: at point t the strips of L, of V and of the result are strip t (block row t, block
    column 0), and U's one block is the whole array. -/
theorem strip_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point t writes back is strip t of the log-softmax of the whole arrays' logits: the body loads and stores its
    whole buffers, its stored value is the log-softmax of the strip's logits, and row p of strip t is row
    t · 1000 + p of L and of V, while U is read whole. -/
theorem strip_written (c : Dev nD) (t : Fin cfg4.N) :
    (dat4 (F := Ideal) V c).flushed 3 t = ((cfg4.win 3).blk t).view.read (Elt Ideal)
      (logSoftmaxK (clipSub (V c main_v21_1 : Mat 10000 64)
        (mm (V c main_v13_0 : Mat 10000 10000) (V c main_v21_0 : Mat 10000 64)))) := by
  show (cfg4.win 3).cut (grid4.coords t) ((dat4 (F := Ideal) V c).after 3 t) = _
  rw [after4_3]
  unfold out4_3
  rw [View.canon_unit_zero zero_off]
  simp only [View.ld_unit_zero (S := S1000x10000) zero_off, View.ld_unit_zero (S := S10000x64) zero_off,
    View.ld_unit_zero (S := S1000x64) zero_off]
  rw [stored_eq]
  obtain ⟨e00, e01, e10, e11, e20, e21, e30, e31⟩ := strip_indices t
  funext j
  obtain ⟨p, q, rfl⟩ : ∃ (p : Fin 1000) (q : Fin 64), j = ix2 p q := ⟨j 0, j 1, eq_ix2 j⟩
  show logSoftmaxK (clipSub (iblk4 V c 2 t : Mat 1000 64) (mm (iblk4 V c 0 t : Mat 1000 10000) (iblk4 V c 1 t : Mat 10000 64))) (ix2 p q)
    = logSoftmaxK (clipSub (V c main_v21_1 : Mat 10000 64) (mm (V c main_v13_0 : Mat 10000 10000) (V c main_v21_0 : Mat 10000 64)))
        (((cfg4.win 3).blk t).view.emb (ix2 p q))
  -- the entry of the array under (p, q) of the strip keeps the lane q
  have hrow : (((cfg4.win 3).blk t).view.emb (ix2 p q) : S10000x64.Idx)
      = ix2 ((((cfg4.win 3).blk t).view.emb (ix2 p q) : S10000x64.Idx) 0) q := by
    funext a; apply Fin.ext
    match a with
    | ⟨0, _⟩ => rfl
    | ⟨1, _⟩ => show win4_3.index t (1 : Fin 2) * 64 + 1 * q.val = q.val; omega
  rw [hrow]
  refine strip_row (R := 10000) (R' := 1000) (K := 10000) (C := 64) _ _ _ _ _ _ p _ (fun k => ?_) ?_ (fun k => ?_) q
  · -- L's strip: row t · 1000 + p, column k
    show V c main_v13_0 (((cfg4.win 0).blk t).view.emb (ix2 p k)) = V c main_v13_0 _
    refine congrArg (V c main_v13_0) (funext fun a => Fin.ext ?_)
    match a with
    | ⟨0, _⟩ => show win4_0.index t (0 : Fin 2) * 1000 + 1 * p.val = win4_3.index t (0 : Fin 2) * 1000 + 1 * p.val; omega
    | ⟨1, _⟩ => show win4_0.index t (1 : Fin 2) * 10000 + 1 * k.val = k.val; omega
  · -- U's one block is the whole array
    funext y
    show V c main_v21_0 (((cfg4.win 1).blk t).view.emb y) = V c main_v21_0 y
    refine congrArg (V c main_v21_0) (funext fun a => Fin.ext ?_)
    match a with
    | ⟨0, _⟩ => show win4_1.index t (0 : Fin 2) * 10000 + 1 * (y 0).val = (y 0).val; omega
    | ⟨1, _⟩ => show win4_1.index t (1 : Fin 2) * 64 + 1 * (y 1).val = (y 1).val; omega
  · -- V's strip: row t · 1000 + p, lane k
    show V c main_v21_1 (((cfg4.win 2).blk t).view.emb (ix2 p k)) = V c main_v21_1 _
    refine congrArg (V c main_v21_1) (funext fun a => Fin.ext ?_)
    match a with
    | ⟨0, _⟩ => show win4_2.index t (0 : Fin 2) * 1000 + 1 * p.val = win4_3.index t (0 : Fin 2) * 1000 + 1 * p.val; omega
    | ⟨1, _⟩ => show win4_2.index t (1 : Fin 2) * 64 + 1 * k.val = k.val; omega

/-- An entry of the result array lies in point t's strip iff each coordinate lies in the strip's range on its axis. -/
theorem mem_strip (t : Fin cfg4.N) (i : S10000x64.Idx) :
    i ∈ ((cfg4.win 3).blk t).view.set ↔ ∀ a : Fin 2, win4_3.index t a * S1000x64.size a ≤ (i a).val
      ∧ (i a).val < win4_3.index t a * S1000x64.size a + S1000x64.size a := by
  show i ∈ ((View.whole main_v22).slice (win4_3.rect t)).set ↔ _
  rw [View.set_slice_whole, Rect.mem_set_unit]
  exact Iff.rfl

/-- Row r of the result lies in the strip of point r / 1000: the ten strips tile the array. -/
theorem strips_cover (i : S10000x64.Idx) :
    ∃ t : Fin cfg4.N, (cfg4.win 3).flush t = true ∧ i ∈ ((cfg4.win 3).blk t).view.set := by
  have hi0 : (i 0).val < 10000 := (i 0).isLt
  have hi1 : (i 1).val < 64 := (i 1).isLt
  have hN : grid4.N = 10 := N_4
  let t : Fin cfg4.N := ⟨(i 0).val / 1000, by show (i 0).val / 1000 < grid4.N; omega⟩
  have ht : t.val = (i 0).val / 1000 := rfl
  obtain ⟨-, -, -, -, -, -, e30, e31⟩ := strip_indices t
  refine ⟨t, flush4_3 t, ?_⟩
  rw [mem_strip]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 64 ≤ (i 1).val ∧ (i 1).val < win4_3.index t (1 : Fin 2) * 64 + 64; omega

/-- The result array after the last region, as a function of the region's entry arrays. -/
theorem arr_out (c : Dev nD) :
    (dat4 (F := Ideal) V c).arrAt 3 cfg4.N
      = logSoftmaxK (clipSub (V c main_v21_1 : Mat 10000 64)
          (mm (V c main_v13_0 : Mat 10000 10000) (V c main_v21_0 : Mat 10000 64))) :=
  (dat4 (F := Ideal) V c).arrAt_eq_of_cover 3 _ (fun t _ => strip_written V c t) strips_cover

end Cert.AdaGnn.Region4

end
-- ==== Proof.Chain.lean ====
/-
  The result array at the end of the kernel's program, walked back through the program's eight stretches to the launch
  memory: each region's output arrays are its function of its entry arrays, an array a later region only reads or does not
  touch is carried across it unchanged, and the host stretches compute the row-scaled weight matrices, the bias rows and
  the two rows of diagonal entries.
-/
import proofs.«174973_g47665547051069_cont_8to1c4_396_5_alg».proof.Proof.Gen.KernelIdeal.Frame
import proofs.«174973_g47665547051069_cont_8to1c4_396_5_alg».proof.Proof.Layers
import proofs.«174973_g47665547051069_cont_8to1c4_396_5_alg».proof.Proof.Region0
import proofs.«174973_g47665547051069_cont_8to1c4_396_5_alg».proof.Proof.Region1
import proofs.«174973_g47665547051069_cont_8to1c4_396_5_alg».proof.Proof.Region2
import proofs.«174973_g47665547051069_cont_8to1c4_396_5_alg».proof.Proof.Region3
import proofs.«174973_g47665547051069_cont_8to1c4_396_5_alg».proof.Proof.Region4
import Idealize.ShloMosaic.Lib.StableHlo.Run
import Idealize.ShloMosaic.Lib.Pipeline.Value
import Idealize.ShloMosaic.Lib.ValueLayout

noncomputable section

namespace Cert.AdaGnn.Chain

open Idealize.ShloMosaic Idealize.ShloMosaic.TcCoe Idealize.ShloMosaic.ValueIdx Idealize.SL.Sem
open Cert.KernelIdeal Cert.KernelIdeal.Gen Cert.AdaGnn

variable (m : (ℓ : Loc nD τ sig) → Buf (Elt Ideal) ℓ) (ρ : Dev nD → PrngReg)

/-! ## What the three host stretches write, and what they leave alone -/

/-- The references the first host stretch writes. -/
abbrev host0W : List (Ref sig .tc) :=
  [main_cst, main_v0, main_v1, main_v2, main_v3, main_v4, main_cst_0, main_v5, main_v6, main_v7, main_v8, main_v9,
    main_v10, main_v11]
/-- The references the second host stretch writes. -/
abbrev host2W : List (Ref sig .tc) := [main_v14, main_v15, main_v16]
/-- The references the third host stretch writes. -/
abbrev host3W : List (Ref sig .tc) := [main_v18, main_v19, main_v20]

theorem host0_writes : (hostOps0 : List (HloOp τ sig (Elt Ideal))).Forall
    fun op => op.writes ⊆ (host0W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
theorem host2_writes : (hostOps2 : List (HloOp τ sig (Elt Ideal))).Forall
    fun op => op.writes ⊆ (host2W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)
theorem host3_writes : (hostOps3 : List (HloOp τ sig (Elt Ideal))).Forall
    fun op => op.writes ⊆ (host3W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- A buffer the first host stretch does not write holds after it what it held before. -/
theorem host0_keep (W : Valuation τ sig (Elt Ideal)) (b : Ref sig .tc) (hb : b ∉ host0W) :
    StableHlo.after hostOps0 W (Proc.devRef .tc b) = W (Proc.devRef .tc b) :=
  StableHlo.after_of_writes_sub hostOps0 W host0_writes hb
/-- A buffer the second host stretch does not write holds after it what it held before. -/
theorem host2_keep (W : Valuation τ sig (Elt Ideal)) (b : Ref sig .tc) (hb : b ∉ host2W) :
    StableHlo.after hostOps2 W (Proc.devRef .tc b) = W (Proc.devRef .tc b) :=
  StableHlo.after_of_writes_sub hostOps2 W host2_writes hb
/-- A buffer the third host stretch does not write holds after it what it held before. -/
theorem host3_keep (W : Valuation τ sig (Elt Ideal)) (b : Ref sig .tc) (hb : b ∉ host3W) :
    StableHlo.after hostOps3 W (Proc.devRef .tc b) = W (Proc.devRef .tc b) :=
  StableHlo.after_of_writes_sub hostOps3 W host3_writes hb

/-! ## The host stretches' results read entry by entry -/

/-- The column of (d k + 1), spread along each row k and multiplied into W entry by entry, is W with row k scaled by
    (d k + 1): entry (p, q) reads the column at (p, 0), which reads d + 1 at p. -/
theorem scaleRows_eq {C : ℕ} (d : Vec1 128) (W : Mat 128 C)
    (h0 : S_.BroadcastsInDim S128 (![] : Fin 0 → Fin S128.rank))
    (h1 : S128.BroadcastsInDim S128x1 (![0] : Fin 1 → Fin S128x1.rank))
    (h2 : S128x1.BroadcastsInDim ⟨2, ![128, C]⟩ (![0, 1] : Fin 2 → Fin (⟨2, ![128, C]⟩ : Shape).rank)) :
    (mulf (F := Ideal) (φ := .f32) (broadcastInDim ⟨2, ![128, C]⟩ ![0, 1] h2 (broadcastInDim S128x1 ![0] h1
        (addf (F := Ideal) (φ := .f32) d (broadcastInDim S128 ![] h0 (constant (F := Ideal) S_ .f32 0x3F800000#32))))) W
      : Mat 128 C) = scaleRows d W := by
  funext i
  obtain ⟨p, q, rfl⟩ : ∃ (p : Fin 128) (q : Fin C), i = ix2 p q := ⟨i 0, i 1, eq_ix2 i⟩
  refine congrArg (· * W (ix2 p q)) ?_
  refine (broadcastInDim_apply _ h2 _ (ix2 p q) (ix2 p (0 : Fin 1)) fun a => ?_).trans ?_
  · match a with
    | ⟨0, _⟩ => rfl
    | ⟨1, _⟩ => rfl
  refine (broadcastInDim_apply _ h1 _ (ix2 p (0 : Fin 1)) (ix1 p) fun a => ?_).trans ?_
  · match a with
    | ⟨0, _⟩ => rfl
  rfl

/-- A [C] array recast as [1, C] reads, at (u, q), the array at q. -/
theorem asRow_eq {C : ℕ} (b : Vec1 C) (h : (⟨1, ![C]⟩ : Shape).ShapeCasts ⟨2, ![1, C]⟩) :
    (shapeCast ⟨2, ![1, C]⟩ b h : Mat 1 C) = asRow b := by
  funext i
  obtain ⟨u, q, rfl⟩ : ∃ (u : Fin 1) (q : Fin C), i = ix2 u q := ⟨i 0, i 1, eq_ix2 i⟩
  exact shapeCast_a_1a_apply b h u q

/-- Row r of a [2, 128] array cut out as [1, 128], flattened to [128] and recast as [1, 128], reads at (u, q) the array
    at (r, q). -/
theorem pickRow_eq (dh : Mat 2 128) (o : ℕ) (r : Fin 2) (hr : r.val = o) (hs : S2x128.Slices ![o, 0] S1x128)
    (h1 : S1x128.ShapeCasts S128) (h2 : S128.ShapeCasts S1x128) :
    (shapeCast S1x128 (shapeCast S128 (extractStridedSlice S1x128 ![o, 0] dh hs) h1) h2 : Mat 1 128) = pickRow dh r := by
  funext i
  obtain ⟨u, q, rfl⟩ : ∃ (u : Fin 1) (q : Fin 128), i = ix2 u q := ⟨i 0, i 1, eq_ix2 i⟩
  refine (shapeCast_a_1a_apply _ h2 u q).trans ?_
  refine (shapeCast_1a_a_apply _ h1 q).trans ?_
  exact slice2_axis0_apply o dh hs (0 : Fin 1) q r (by rw [hr]; rfl)

/-! ## The launch arrays and the kernel's intermediate arrays at one core -/

section Core
variable (c : Dev nD)

/-- Core c's launch arrays: the features, the operator, the first layer's weights, bias and diagonal entries, the two
    hidden layers' rows of diagonal entries, and the last layer's weights, bias and diagonal entries. -/
abbrev aX : Mat 10000 128 := m ((c.tc : Thread nD τ).loc main_arg0)
abbrev aL : Mat 10000 10000 := m ((c.tc : Thread nD τ).loc main_arg1)
abbrev aW1 : Mat 128 128 := m ((c.tc : Thread nD τ).loc main_arg2)
abbrev aB1 : Vec1 128 := m ((c.tc : Thread nD τ).loc main_arg3)
abbrev aD1 : Vec1 128 := m ((c.tc : Thread nD τ).loc main_arg4)
abbrev aDh : Mat 2 128 := m ((c.tc : Thread nD τ).loc main_arg5)
abbrev aW2 : Mat 128 64 := m ((c.tc : Thread nD τ).loc main_arg6)
abbrev aB2 : Vec1 64 := m ((c.tc : Thread nD τ).loc main_arg7)
abbrev aD2 : Vec1 128 := m ((c.tc : Thread nD τ).loc main_arg8)

/-- The kernel's intermediate arrays as functions of core c's launch arrays. -/
abbrev cU1 : Mat 10000 128 := kU1 (aX m c) (aW1 m c) (aD1 m c)
abbrev cV1 : Mat 10000 128 := kV1 (aX m c) (aW1 m c) (aB1 m c)
abbrev cH1 : Mat 10000 128 := kH1 (aX m c) (aL m c) (aW1 m c) (aB1 m c) (aD1 m c)
abbrev cH2 : Mat 10000 128 := kH2 (aX m c) (aL m c) (aW1 m c) (aB1 m c) (aD1 m c) (aDh m c)
abbrev cH3 : Mat 10000 128 := kH3 (aX m c) (aL m c) (aW1 m c) (aB1 m c) (aD1 m c) (aDh m c)
abbrev cU2 : Mat 10000 64 := kU2 (aX m c) (aL m c) (aW1 m c) (aB1 m c) (aD1 m c) (aDh m c) (aW2 m c) (aD2 m c)
abbrev cV2 : Mat 10000 64 := kV2 (aX m c) (aL m c) (aW1 m c) (aB1 m c) (aD1 m c) (aDh m c) (aW2 m c) (aB2 m c)

end Core

/-! ## Region 0's entry: the launch memory after the first host stretch -/

/-- The features and the first layer's weights are as launched. -/
theorem V1_arg0 (c : Dev nD) : V1 m ρ c main_arg0 = aX m c :=
  (host0_keep (W0 m ρ c) main_arg0 (by decide)).trans rfl
theorem V1_arg2 (c : Dev nD) : V1 m ρ c main_arg2 = aW1 m c :=
  (host0_keep (W0 m ρ c) main_arg2 (by decide)).trans rfl
/-- The first layer's weights with row k scaled by (d1 k + 1). -/
theorem V1_v4 (c : Dev nD) : V1 m ρ c main_v4 = scaleRows (aD1 m c) (aW1 m c) := by
  show StableHlo.after hostOps0 (W0 m ρ c) (Proc.devRef .tc main_v4) = _
  after_results
  exact scaleRows_eq _ _ _ _ _
/-- The first layer's bias as a row. -/
theorem V1_v10 (c : Dev nD) : V1 m ρ c main_v10 = asRow (aB1 m c) := by
  show StableHlo.after hostOps0 (W0 m ρ c) (Proc.devRef .tc main_v10) = _
  after_results
  exact asRow_eq _ _
/-- The last layer's weights with row k scaled by (d2 k + 1), and its bias as a row: written by the first host stretch,
    read by region 3. -/
theorem W1_v9 (c : Dev nD) : W1 m ρ c (Proc.devRef .tc main_v9) = scaleRows (aD2 m c) (aW2 m c) := by
  show StableHlo.after hostOps0 (W0 m ρ c) (Proc.devRef .tc main_v9) = _
  after_results
  exact scaleRows_eq _ _ _ _ _
theorem W1_v11 (c : Dev nD) : W1 m ρ c (Proc.devRef .tc main_v11) = asRow (aB2 m c) := by
  show StableHlo.after hostOps0 (W0 m ρ c) (Proc.devRef .tc main_v11) = _
  after_results
  exact asRow_eq _ _

/-! ## Region 1's entry: region 0's exit -/

/-- Region 0 does not touch the operator. -/
theorem V2_arg1 (c : Dev nD) : V2 m ρ c main_arg1 = aL m c :=
  (W2_of_ne m ρ c main_arg1 (by decide)).trans ((host0_keep (W0 m ρ c) main_arg1 (by decide)).trans rfl)
/-- Region 0 leaves U1 = x · (scaled W1) and V1 = x · W1 + b1 in its two result arrays. -/
theorem V2_v12_0 (c : Dev nD) : V2 m ρ c main_v12_0 = cU1 m c := by
  refine ((W2_arr m ρ c 4).trans (Region0.arr_u (V1 m ρ) c)).trans ?_
  rw [V1_arg0, V1_v4]
  rfl
theorem V2_v12_1 (c : Dev nD) : V2 m ρ c main_v12_1 = cV1 m c := by
  refine ((W2_arr m ρ c 5).trans (Region0.arr_v (V1 m ρ) c)).trans ?_
  rw [V1_arg0, V1_arg2, V1_v10]
  rfl

/-! ## Region 1's exit -/

/-- Region 1 copies the operator and leaves H1 = clip (V1 − L · U1) in both of its feature arrays. -/
theorem V3_v13_0 (c : Dev nD) : V3 m ρ c main_v13_0 = aL m c :=
  ((W3_arr m ρ c 3).trans (Region1.arr_l (V2 m ρ) c)).trans (V2_arg1 m ρ c)
theorem V3_v13_1 (c : Dev nD) : V3 m ρ c main_v13_1 = cH1 m c := by
  refine ((W3_arr m ρ c 4).trans (Region1.arr_h32 (V2 m ρ) c)).trans ?_
  rw [V2_v12_1, V2_arg1, V2_v12_0]
  rfl
theorem V3_v13_2 (c : Dev nD) : V3 m ρ c main_v13_2 = cH1 m c := by
  refine ((W3_arr m ρ c 5).trans (Region1.arr_h16 (V2 m ρ) c)).trans ?_
  rw [V2_v12_1, V2_arg1, V2_v12_0]
  rfl
/-- Neither the first host stretch nor regions 0 and 1 touch the hidden layers' diagonal entries. -/
theorem W3_arg5 (c : Dev nD) : W3 m ρ c (Proc.devRef .tc main_arg5) = aDh m c :=
  (W3_of_ne m ρ c main_arg5 (by decide)).trans
    ((W2_of_ne m ρ c main_arg5 (by decide)).trans ((host0_keep (W0 m ρ c) main_arg5 (by decide)).trans rfl))

/-! ## Region 2's entry: after the second host stretch -/

theorem V4_v13_0 (c : Dev nD) : V4 m ρ c main_v13_0 = aL m c :=
  (host2_keep (W3 m ρ c) main_v13_0 (by decide)).trans (V3_v13_0 m ρ c)
theorem V4_v13_1 (c : Dev nD) : V4 m ρ c main_v13_1 = cH1 m c :=
  (host2_keep (W3 m ρ c) main_v13_1 (by decide)).trans (V3_v13_1 m ρ c)
theorem V4_v13_2 (c : Dev nD) : V4 m ρ c main_v13_2 = cH1 m c :=
  (host2_keep (W3 m ρ c) main_v13_2 (by decide)).trans (V3_v13_2 m ρ c)
/-- The first hidden layer's row of diagonal entries. -/
theorem V4_v16 (c : Dev nD) : V4 m ρ c main_v16 = pickRow (aDh m c) 0 := by
  show StableHlo.after hostOps2 (W3 m ρ c) (Proc.devRef .tc main_v16) = _
  after_results
  rw [W3_arg5]
  exact pickRow_eq _ 0 0 rfl _ _ _

/-! ## Region 2's exit -/

/-- Region 2 only reads the operator, and leaves H2 = clip (H1 − (L · H1) · dh₀) in both of its result arrays. -/
theorem V5_v13_0 (c : Dev nD) : V5 m ρ c main_v13_0 = aL m c :=
  ((W5_arr m ρ c 0).trans (((dat2 (V4 m ρ) c).arrAt_in 0 rfl _).trans (A_eq2 (V4 m ρ) c 0))).trans (V4_v13_0 m ρ c)
theorem V5_v17_0 (c : Dev nD) : V5 m ρ c main_v17_0 = cH2 m c := by
  refine ((W5_arr m ρ c 4).trans (Region2.arr_o32 (V4 m ρ) c)).trans ?_
  rw [V4_v13_0, V4_v13_2, V4_v13_1, V4_v16]
  rfl
theorem V5_v17_1 (c : Dev nD) : V5 m ρ c main_v17_1 = cH2 m c := by
  refine ((W5_arr m ρ c 5).trans (Region2.arr_o16 (V4 m ρ) c)).trans ?_
  rw [V4_v13_0, V4_v13_2, V4_v13_1, V4_v16]
  rfl
/-- Neither the second host stretch nor region 2 touches the hidden layers' diagonal entries. -/
theorem W5_arg5 (c : Dev nD) : W5 m ρ c (Proc.devRef .tc main_arg5) = aDh m c :=
  (W5_of_ne m ρ c main_arg5 (by decide)).trans ((host2_keep (W3 m ρ c) main_arg5 (by decide)).trans (W3_arg5 m ρ c))

/-! ## Region 3's entry: after the third host stretch -/

theorem V6_v13_0 (c : Dev nD) : V6 m ρ c main_v13_0 = aL m c :=
  (host3_keep (W5 m ρ c) main_v13_0 (by decide)).trans (V5_v13_0 m ρ c)
theorem V6_v17_0 (c : Dev nD) : V6 m ρ c main_v17_0 = cH2 m c :=
  (host3_keep (W5 m ρ c) main_v17_0 (by decide)).trans (V5_v17_0 m ρ c)
theorem V6_v17_1 (c : Dev nD) : V6 m ρ c main_v17_1 = cH2 m c :=
  (host3_keep (W5 m ρ c) main_v17_1 (by decide)).trans (V5_v17_1 m ρ c)
/-- The second hidden layer's row of diagonal entries. -/
theorem V6_v20 (c : Dev nD) : V6 m ρ c main_v20 = pickRow (aDh m c) 1 := by
  show StableHlo.after hostOps3 (W5 m ρ c) (Proc.devRef .tc main_v20) = _
  after_results
  rw [W5_arg5]
  exact pickRow_eq _ 1 1 rfl _ _ _
/-- A buffer that regions 0, 1 and 2 and the second and third host stretches leave alone holds at region 3's entry what
    the first host stretch left in it. -/
theorem W6_eq_W1 (c : Dev nD) (b : Ref sig .tc) (h0 : ∀ w, Pipeline.arrRef spec0 w ≠ b) (h1 : ∀ w, Pipeline.arrRef spec1 w ≠ b)
    (h2 : b ∉ host2W) (h3 : ∀ w, Pipeline.arrRef spec2 w ≠ b) (h4 : b ∉ host3W) :
    W6 m ρ c (Proc.devRef .tc b) = W1 m ρ c (Proc.devRef .tc b) :=
  (host3_keep (W5 m ρ c) b h4).trans ((W5_of_ne m ρ c b h3).trans ((host2_keep (W3 m ρ c) b h2).trans
    ((W3_of_ne m ρ c b h1).trans (W2_of_ne m ρ c b h0))))
theorem V6_arg6 (c : Dev nD) : V6 m ρ c main_arg6 = aW2 m c :=
  (W6_eq_W1 m ρ c main_arg6 (by decide) (by decide) (by decide) (by decide) (by decide)).trans
    ((host0_keep (W0 m ρ c) main_arg6 (by decide)).trans rfl)
theorem V6_v9 (c : Dev nD) : V6 m ρ c main_v9 = scaleRows (aD2 m c) (aW2 m c) :=
  (W6_eq_W1 m ρ c main_v9 (by decide) (by decide) (by decide) (by decide) (by decide)).trans (W1_v9 m ρ c)
theorem V6_v11 (c : Dev nD) : V6 m ρ c main_v11 = asRow (aB2 m c) :=
  (W6_eq_W1 m ρ c main_v11 (by decide) (by decide) (by decide) (by decide) (by decide)).trans (W1_v11 m ρ c)

/-! ## Region 4's entry: region 3's exit -/

/-- Region 3 only reads the operator; with H3 = clip (H2 − (L · H2) · dh₁) it leaves U2 = H3 · (scaled W2) and
    V2 = H3 · W2 + b2 in its two result arrays. -/
theorem V7_v13_0 (c : Dev nD) : V7 m ρ c main_v13_0 = aL m c :=
  ((W7_arr m ρ c 0).trans (((dat3 (V6 m ρ) c).arrAt_in 0 rfl _).trans (A_eq3 (V6 m ρ) c 0))).trans (V6_v13_0 m ρ c)
theorem V7_v21_0 (c : Dev nD) : V7 m ρ c main_v21_0 = cU2 m c := by
  refine ((W7_arr m ρ c 7).trans (Region3.arr_u (V6 m ρ) c)).trans ?_
  rw [V6_v13_0, V6_v17_1, V6_v17_0, V6_v20, V6_v9]
  rfl
theorem V7_v21_1 (c : Dev nD) : V7 m ρ c main_v21_1 = cV2 m c := by
  refine ((W7_arr m ρ c 8).trans (Region3.arr_v (V6 m ρ) c)).trans ?_
  rw [V6_v13_0, V6_v17_1, V6_v17_0, V6_v20, V6_arg6, V6_v11]
  rfl

/-- The result array's contents at the last boundary: the kernel's composite of the nine launch arrays. -/
theorem W8_result (c : Dev nD) :
    (W8 (F := Ideal) m ρ c (Proc.devRef .tc main_v22) : Mat 10000 64)
      = kOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  refine ((W8_arr m ρ c 3).trans (Region4.arr_out (V7 m ρ) c)).trans ?_
  rw [V7_v21_1, V7_v13_0, V7_v21_0]
  rfl

end Cert.AdaGnn.Chain

end
-- ==== Proof.Finite.lean ====
/-
  The precondition says that every entry of every argument array is finite. Read entry by entry: the printed predicate
  is a conjunction, one conjunct per array, each the reduction by "and" of the entries' tests |a i| < +∞ with
  |x| = max x (−x), and an extended real whose absolute value is below +∞ is a real number: at +∞ and at −∞ the
  absolute value is +∞ itself.
-/
import proofs.«174973_g47665547051069_cont_8to1c4_396_5_alg».proof.Defs
import proofs.«174973_g47665547051069_cont_8to1c4_396_5_alg».proof.Proof.Gen.Pre_finite_inputs
import proofs.«174973_g47665547051069_cont_8to1c4_396_5_alg».proof.Proof.Layers
import Idealize.ShloMosaic.Lib.ReduceAll

noncomputable section

namespace Cert.AdaGnn.Finite

open Idealize.ShloMosaic Idealize.ShloMosaic.TcCoe Idealize.ShloMosaic.ValueIdx Idealize.SL.Sem
open Cert.KernelIdeal Cert.AdaGnn

/-- The result of a reduction over every axis has one index. -/
instance : Subsingleton (⟨0, ![]⟩ : Shape).Idx := ⟨fun a b => funext fun d => d.elim0⟩

/-- The word the entries are compared with is +∞. -/
theorem posInf_word : Ideal.ofBits .f32 0x7F800000#32 = (⊤ : EReal) := by simp [Ideal.ofBits, Ideal.ieee]

/-- An extended real whose absolute value max x (−x) tests below +∞ is a real number. -/
theorem real_of_abs_lt (x : EReal) (h : Ideal.cmp .olt (max x (-x)) (Ideal.ofBits .f32 0x7F800000#32) = 1#1) :
    ∃ r : ℝ, x = (r : EReal) := by
  rw [posInf_word] at h
  have hlt : max x (-x) < ⊤ := by
    by_contra hn
    simp [Ideal.cmp, hn] at h
  induction x using EReal.rec with
  | bot => simp at hlt
  | coe r => exact ⟨r, rfl⟩
  | top => simp at hlt

/-- An array all of whose entries pass the test |a i| < +∞ (the reduction by "and" of the tests is 1) holds real numbers only. -/
theorem allReal_of_all {s u : Shape} {axes : List (Fin s.rank)} (a t : FVec Ideal s .f32)
    (ht : ∀ i, t i = Ideal.ofBits .f32 0x7F800000#32) (init : u.Idx → BitVec 1)
    (hrt : s.ReducesTo axes (⟨0, ![]⟩ : Shape)) (hu : 0 < u.numel)
    (h : Host.reduce IntOp.andi (cmpf .olt (Host.absf a) t) init hrt hu ix0 = 1#1) : AllReal a := by
  intro i
  have hi : cmpf .olt (Host.absf a) t i = 1#1 := Host.reduce_andi_all _ init hrt hu ix0 h i
  have hi' : Ideal.cmp .olt (max (a i) (-(a i))) (t i) = 1#1 := hi
  rw [ht i] at hi'
  exact real_of_abs_lt (a i) hi'

/-- Under the precondition every argument array of the idealized kernel holds real numbers only, on every device. -/
theorem reals_of_pre (m : (ℓ : Loc nD τ sig) → Buf (Elt Ideal) ℓ)
    (h : Cert.Pre_KernelIdeal (hPre_finite_inputs := Cert.Pre_finite_inputs.Gen.facts) m) (c : Dev nD) :
    AllReal (m ((c.tc : Thread nD τ).loc main_arg0) : Mat 10000 128)
    ∧ AllReal (m ((c.tc : Thread nD τ).loc main_arg1) : Mat 10000 10000)
    ∧ AllReal (m ((c.tc : Thread nD τ).loc main_arg2) : Mat 128 128)
    ∧ AllReal (m ((c.tc : Thread nD τ).loc main_arg3) : Vec1 128)
    ∧ AllReal (m ((c.tc : Thread nD τ).loc main_arg4) : Vec1 128)
    ∧ AllReal (m ((c.tc : Thread nD τ).loc main_arg5) : Mat 2 128)
    ∧ AllReal (m ((c.tc : Thread nD τ).loc main_arg6) : Mat 128 64)
    ∧ AllReal (m ((c.tc : Thread nD τ).loc main_arg7) : Vec1 64)
    ∧ AllReal (m ((c.tc : Thread nD τ).loc main_arg8) : Vec1 128) := by
  have h0 := congrFun (h c) ix0
  dsimp only [Cert.Pre_finite_inputs.fn, Cert.Pre_finite_inputs.fn_part1, Cert.Pre_finite_inputs.fn_part2] at h0
  obtain ⟨h0, e8⟩ := IntOp.andi_eq_one.1 (show IntOp.andi _ _ = 1#1 from h0)
  obtain ⟨h0, e7⟩ := IntOp.andi_eq_one.1 (show IntOp.andi _ _ = 1#1 from h0)
  obtain ⟨h0, e6⟩ := IntOp.andi_eq_one.1 (show IntOp.andi _ _ = 1#1 from h0)
  obtain ⟨h0, e5⟩ := IntOp.andi_eq_one.1 (show IntOp.andi _ _ = 1#1 from h0)
  obtain ⟨h0, e4⟩ := IntOp.andi_eq_one.1 (show IntOp.andi _ _ = 1#1 from h0)
  obtain ⟨h0, e3⟩ := IntOp.andi_eq_one.1 (show IntOp.andi _ _ = 1#1 from h0)
  obtain ⟨h0, e2⟩ := IntOp.andi_eq_one.1 (show IntOp.andi _ _ = 1#1 from h0)
  obtain ⟨e0, e1⟩ := IntOp.andi_eq_one.1 (show IntOp.andi _ _ = 1#1 from h0)
  exact ⟨allReal_of_all _ _ (fun _ => rfl) _ _ _ e0, allReal_of_all _ _ (fun _ => rfl) _ _ _ e1,
    allReal_of_all _ _ (fun _ => rfl) _ _ _ e2, allReal_of_all _ _ (fun _ => rfl) _ _ _ e3,
    allReal_of_all _ _ (fun _ => rfl) _ _ _ e4, allReal_of_all _ _ (fun _ => rfl) _ _ _ e5,
    allReal_of_all _ _ (fun _ => rfl) _ _ _ e6, allReal_of_all _ _ (fun _ => rfl) _ _ _ e7,
    allReal_of_all _ _ (fun _ => rfl) _ _ _ e8⟩

end Cert.AdaGnn.Finite

end
-- ==== Proof.Algebra.lean ====
/-
  The two composites agree on finite inputs.

  With every input entry a real number every intermediate entry is a real number, so the extended reals' sums and
  products are the reals' and the distributive law holds: for a weighted layer
      Σ_k (h(p,k) − (Σ_n L(p,n) h(n,k)) (d_k + 1)) W(k,q) + b_q
        = (Σ_k h(p,k) W(k,q) + b_q) − Σ_n L(p,n) Σ_k h(n,k) ((d_k + 1) W(k,q)),
  which is the kernel's regrouping of the reference's layer. The hidden steps are the same function on both sides. For
  the log-softmax, the row's maximum M is the maximum of finitely many real numbers, the row's sum S of exp(z − M) is a
  positive real number, and z − (log S + M) = (z − M) − log S in the reals.
-/
import proofs.«174973_g47665547051069_cont_8to1c4_396_5_alg».proof.Proof.Layers
import Idealize.ShloMosaic.PureOps.Ideal.Laws

noncomputable section

namespace Cert.AdaGnn

open Idealize.ShloMosaic Idealize.ShloMosaic.ValueIdx

/-! ## The real numbers inside the extended reals -/

/-- The inclusion of the reals is monotone, so it commutes with the maximum of two numbers. -/
theorem coe_max_real (a b : ℝ) : ((max a b : ℝ) : EReal) = max (a : EReal) (b : EReal) :=
  EReal.coe_strictMono.monotone.map_max

/-- The inclusion of the reals is additive, so it commutes with a finite sum. -/
theorem coe_sum_real {ι : Type*} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

/-- The word of 0 is the real number 0. -/
theorem w0_eq : w0 = ((0 : ℝ) : EReal) := by
  show Ideal.ofBits .f32 0x00000000#32 = _
  rw [Ideal.ofBits_zero_f32, EReal.coe_zero]

/-- The word of 1 is the real number 1: sign 0, biased exponent 127, fraction 0. -/
theorem w1_eq : w1 = ((1 : ℝ) : EReal) := by
  show Ideal.ofBits .f32 0x3F800000#32 = _
  simp [Ideal.ofBits, Ideal.ieee, -EReal.coe_mul]; norm_num

/-- The word of −∞ is the bottom element: sign 1, all-ones exponent, fraction 0. -/
theorem wNegInf_eq : wNegInf = ⊥ := by
  show Ideal.ofBits .f32 0xFF800000#32 = _
  simp [Ideal.ofBits, Ideal.ieee]

/-! The real numbers are closed under the operations the layers use. -/

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_max {x y : EReal} (hx : ∃ r : ℝ, x = r) (hy : ∃ r : ℝ, y = r) : ∃ r : ℝ, max x y = r := by
  obtain ⟨a, rfl⟩ := hx; obtain ⟨b, rfl⟩ := hy; exact ⟨max a b, (coe_max_real a b).symm⟩

theorem real_sum {ι : Type*} (s : Finset ι) {f : ι → EReal} (hf : ∀ k, ∃ r : ℝ, f k = r) :
    ∃ r : ℝ, ∑ k ∈ s, f k = r := by
  choose g hg using hf
  exact ⟨∑ k ∈ s, g k, by rw [coe_sum_real]; exact Finset.sum_congr rfl fun k _ => hg k⟩

theorem real_w0 : ∃ r : ℝ, w0 = r := ⟨0, w0_eq⟩

theorem real_w1 : ∃ r : ℝ, w1 = r := ⟨1, w1_eq⟩

/-! ## Every layer function keeps the entries real -/

section Closure
variable {R K C : ℕ}

theorem allReal_mm {l : Mat R K} {r : Mat K C} (hl : AllReal l) (hr : AllReal r) : AllReal (mm l r) :=
  fun _ => real_sum _ fun _ => real_mul (hl _) (hr _)

theorem allReal_asRow {b : Vec1 C} (hb : AllReal b) : AllReal (asRow b) := fun _ => hb _

theorem allReal_pickRow {dh : Mat 2 C} (h : AllReal dh) (r : Fin 2) : AllReal (pickRow dh r) := fun _ => h _

theorem allReal_scaleRows {d : Vec1 K} {W : Mat K C} (hd : AllReal d) (hW : AllReal W) : AllReal (scaleRows d W) :=
  fun _ => real_mul (real_add (hd _) real_w1) (hW _)

theorem allReal_mmBias {l : Mat R K} {r : Mat K C} {b : Mat 1 C} (hl : AllReal l) (hr : AllReal r) (hb : AllReal b) :
    AllReal (mmBias l r b) :=
  fun i => real_add (allReal_mm hl hr i) (hb _)

theorem allReal_clipSub {v e : Mat R C} (hv : AllReal v) (he : AllReal e) : AllReal (clipSub v e) :=
  fun i => real_max (real_sub (hv i) (he i)) real_w0

theorem allReal_hid {L : Mat R K} {h16 : Mat K C} {h32 : Mat R C} {dr : Mat 1 C} (hL : AllReal L) (h16r : AllReal h16)
    (h32r : AllReal h32) (hdr : AllReal dr) : AllReal (hid L h16 h32 dr) :=
  fun i => real_max (real_sub (h32r i) (real_mul (allReal_mm hL h16r i) (hdr _))) real_w0

end Closure

/-! ## A weighted layer: the kernel's regrouping is the reference's layer -/

/-- The identity in the reals, for one output entry: row p of the features is hp, row p of the operator is Lp, column q
    of the weights is W, the bias entry is b. Both sides are hp·W + b less the double sum over (n, k) of
    Lp n · h n k · (d k + 1) · W k, summed in the two orders. -/
theorem layer_real {N K : ℕ} (hp : Fin K → ℝ) (Lp : Fin N → ℝ) (h : Fin N → Fin K → ℝ) (d W : Fin K → ℝ) (b : ℝ) :
    (∑ k, hp k * W k + b) - ∑ n, Lp n * ∑ k, h n k * ((d k + 1) * W k)
      = ∑ k, (hp k - (∑ n, Lp n * h n k) * (d k + 1)) * W k + b := by
  have hswap : ∑ n, Lp n * ∑ k, h n k * ((d k + 1) * W k) = ∑ k, (∑ n, Lp n * h n k) * (d k + 1) * W k := by
    simp_rw [Finset.mul_sum, Finset.sum_mul]
    rw [Finset.sum_comm]
    exact Finset.sum_congr rfl fun k _ => Finset.sum_congr rfl fun n _ => by ring
  rw [hswap]
  simp_rw [sub_mul]
  rw [Finset.sum_sub_distrib]
  ring

section Points
variable {R K C : ℕ}

theorem clipSub_apply (v e : Mat R C) (p : Fin R) (q : Fin C) :
    clipSub v e (ix2 p q) = max (v (ix2 p q) - e (ix2 p q)) w0 := rfl

theorem mmBias_apply (l : Mat R K) (r : Mat K C) (b : Mat 1 C) (p : Fin R) (q : Fin C) :
    mmBias l r b (ix2 p q) = (∑ k : Fin K, l (ix2 p k) * r (ix2 k q)) + b (ix2 0 q) := rfl

theorem scaleRows_apply (d : Vec1 K) (W : Mat K C) (k : Fin K) (q : Fin C) :
    scaleRows d W (ix2 k q) = (d (ix1 k) + w1) * W (ix2 k q) := rfl

theorem asRow_apply (b : Vec1 C) (r : Fin 1) (q : Fin C) : asRow b (ix2 r q) = b (ix1 q) := rfl

theorem mixed_apply (L : Mat 10000 10000) (h : Mat 10000 C) (d : Vec1 C) (p : Fin 10000) (k : Fin C) :
    mixed L h d (ix2 p k) = h (ix2 p k) - (∑ n : Fin 10000, L (ix2 p n) * h (ix2 n k)) * (d (ix1 k) + w1) := rfl

end Points

/-- A weighted layer on real entries: the product with the row-scaled weights, pushed through the operator and taken off
    the biased product, is the biased product of the mixed features; then both are clipped at zero. -/
theorem layer_eq {K C : ℕ} {h : Mat 10000 K} {L : Mat 10000 10000} {W : Mat K C} {b : Vec1 C} {d : Vec1 K}
    (hh : AllReal h) (hL : AllReal L) (hW : AllReal W) (hb : AllReal b) (hd : AllReal d) :
    clipSub (mmBias h W (asRow b)) (mm L (mm h (scaleRows d W)))
      = fun i => max (mmBias (mixed L h d) W (asRow b) i) w0 := by
  choose h' hh' using hh
  choose L' hL' using hL
  choose W' hW' using hW
  choose b' hb' using hb
  choose d' hd' using hd
  funext i
  obtain ⟨p, q, rfl⟩ : ∃ (p : Fin 10000) (q : Fin C), i = ix2 p q := ⟨i 0, i 1, eq_ix2 i⟩
  rw [clipSub_apply, mmBias_apply, mmBias_apply, mm_apply, asRow_apply]
  simp only [mm_apply, scaleRows_apply, mixed_apply]
  simp only [hh', hL', hW', hb', hd', w1_eq, w0_eq]
  simp only [← EReal.coe_mul, ← EReal.coe_add, ← EReal.coe_sub, ← coe_sum_real, ← coe_max_real]
  rw [layer_real (fun k => h' (ix2 p k)) (fun n => L' (ix2 p n)) (fun n k => h' (ix2 n k)) (fun k => d' (ix1 k))
    (fun k => W' (ix2 k q)) (b' (ix1 q))]

/-! ## The log-softmax: the two groupings agree on real rows -/

/-- The maximum of a nonempty row of real numbers, folded from −∞, is one of the row's entries. -/
theorem rowMax_mem {R C : ℕ} (hC : 0 < C) (z : Mat R C) (p : Fin R) : ∃ k : Fin C, rowMax z p = z (ix2 p k) := by
  haveI : Nonempty (Fin C) := ⟨⟨0, hC⟩⟩
  have hsup : rowMax z p = (Finset.univ : Finset (Fin C)).sup (fun k => z (ix2 p k)) := by
    unfold rowMax; rw [wNegInf_eq]; rfl
  obtain ⟨k, -, hk⟩ := Finset.exists_mem_eq_sup (Finset.univ : Finset (Fin C)) Finset.univ_nonempty
    (fun k => z (ix2 p k))
  exact ⟨k, hsup.trans hk⟩

/-- So it is a real number when the row's entries are. -/
theorem real_rowMax {R C : ℕ} (hC : 0 < C) {z : Mat R C} (hz : AllReal z) (p : Fin R) : ∃ m : ℝ, rowMax z p = m := by
  obtain ⟨k, hk⟩ := rowMax_mem hC z p
  obtain ⟨m, hm⟩ := hz (ix2 p k)
  exact ⟨m, hk.trans hm⟩

/-- The row's sum of exp (z − M) is a positive real number: each term is the real exponential of a real number. -/
theorem rowSumExp_pos {R C : ℕ} (hC : 0 < C) {z : Mat R C} (hz : AllReal z) (p : Fin R) :
    ∃ S : ℝ, 0 < S ∧ rowSumExp z p = S := by
  haveI : Nonempty (Fin C) := ⟨⟨0, hC⟩⟩
  obtain ⟨m, hm⟩ := real_rowMax hC hz p
  choose z' hz' using hz
  refine ⟨∑ k : Fin C, Real.exp (z' (ix2 p k) - m), Finset.sum_pos (fun k _ => Real.exp_pos _) Finset.univ_nonempty, ?_⟩
  unfold rowSumExp
  rw [coe_sum_real]
  refine Finset.sum_congr rfl fun k _ => ?_
  rw [hm, hz', ← EReal.coe_sub, Ideal.exp_coe]

/-- With z, M and log S real, z − (log S + M) = (z − M) − log S. -/
theorem logSoftmax_eq {R C : ℕ} (hC : 0 < C) {z : Mat R C} (hz : AllReal z) : logSoftmaxK z = logSoftmaxR z := by
  funext i
  obtain ⟨m, hm⟩ := real_rowMax hC hz (i 0)
  obtain ⟨S, hS0, hS⟩ := rowSumExp_pos hC hz (i 0)
  obtain ⟨a, ha⟩ := hz i
  show z i - (Ideal.log (rowSumExp z (i 0)) + rowMax z (i 0)) = (z i - rowMax z (i 0)) - Ideal.log (rowSumExp z (i 0))
  rw [hS, hm, ha, Ideal.log_coe, if_neg (not_le.mpr hS0)]
  simp only [← EReal.coe_add, ← EReal.coe_sub]
  congr 1; ring

/-- On inputs whose entries are all real numbers the kernel's composite is the reference's. -/
theorem kOut_eq_rOut (x : Mat 10000 128) (L : Mat 10000 10000) (W1 : Mat 128 128) (b1 d1 : Vec1 128) (dh : Mat 2 128)
    (W2 : Mat 128 64) (b2 : Vec1 64) (d2 : Vec1 128)
    (hx : AllReal x) (hL : AllReal L) (hW1 : AllReal W1) (hb1 : AllReal b1) (hd1 : AllReal d1) (hdh : AllReal dh)
    (hW2 : AllReal W2) (hb2 : AllReal b2) (hd2 : AllReal d2) :
    kOut x L W1 b1 d1 dh W2 b2 d2 = rOut x L W1 b1 d1 dh W2 b2 d2 := by
  -- the first layer
  have h1 : kH1 x L W1 b1 d1 = rH1 x L W1 b1 d1 := layer_eq hx hL hW1 hb1 hd1
  -- the two hidden steps are the same function of it
  have h2 : kH2 x L W1 b1 d1 dh = rH2 x L W1 b1 d1 dh := by unfold kH2 rH2; rw [h1]
  have h3 : kH3 x L W1 b1 d1 dh = rH3 x L W1 b1 d1 dh := by unfold kH3 rH3; rw [h2]
  -- the features stay real
  have r1 : AllReal (kH1 x L W1 b1 d1) :=
    allReal_clipSub (allReal_mmBias hx hW1 (allReal_asRow hb1)) (allReal_mm hL (allReal_mm hx (allReal_scaleRows hd1 hW1)))
  have r2 : AllReal (kH2 x L W1 b1 d1 dh) := allReal_hid hL r1 r1 (allReal_pickRow hdh 0)
  have r3 : AllReal (kH3 x L W1 b1 d1 dh) := allReal_hid hL r2 r2 (allReal_pickRow hdh 1)
  -- the last layer
  have hz : kZ x L W1 b1 d1 dh W2 b2 d2 = rZ x L W1 b1 d1 dh W2 b2 d2 := by
    unfold rZ; rw [← h3]; exact layer_eq r3 hL hW2 hb2 hd2
  have rz : AllReal (kZ x L W1 b1 d1 dh W2 b2 d2) :=
    allReal_clipSub (allReal_mmBias r3 hW2 (allReal_asRow hb2)) (allReal_mm hL (allReal_mm r3 (allReal_scaleRows hd2 hW2)))
  -- the log-softmax
  unfold kOut rOut
  rw [← hz]
  exact logSoftmax_eq (by norm_num) rz

end Cert.AdaGnn

end
-- ==== Proof.RefValue.lean ====
/-
  The reference's result, read one operation at a time, is the reference's composite of the argument arrays: each
  matrix product an entry-by-entry sum, each broadcast of a [C] array a row added or multiplied into every row, each clip
  a maximum with zero, the row's maximum a fold from −∞ and the row's sum of exponentials a plain sum.
-/
import proofs.«174973_g47665547051069_cont_8to1c4_396_5_alg».proof.Proof.RefRun
import proofs.«174973_g47665547051069_cont_8to1c4_396_5_alg».proof.Proof.RefRead
import proofs.«174973_g47665547051069_cont_8to1c4_396_5_alg».proof.Proof.Layers
import proofs.«174973_g47665547051069_cont_8to1c4_396_5_alg».proof.Proof.LibPlainDot
import Idealize.ShloMosaic.PureOps.Ideal.Laws
import Idealize.ShloMosaic.PureOps.Reduce

noncomputable section

namespace Cert.AdaGnn.RefValue

open Idealize.ShloMosaic Idealize.ShloMosaic.TcCoe Idealize.ShloMosaic.ValueIdx Idealize.SL.Sem
open Cert.ReferenceIdeal Cert.AdaGnn

/-! ## The index functions of the products and broadcasts, at an index given by its coordinates -/

/-- A product's left index at (p, q), contraction coordinate k, is (p, k). -/
theorem lidx_v0 (p : Fin 10000) (q : Fin 128) (k : Fin 10000) : ReadP.lidx_main_v0 (ix2 p q) k = ix2 p k :=
  funext fun a => Fin.ext (by match a with | ⟨0, _⟩ => rfl | ⟨1, _⟩ => rfl)
/-- A product's right index at (p, q), contraction coordinate k, is (k, q). -/
theorem ridx_v0 (p : Fin 10000) (q : Fin 128) (k : Fin 10000) : ReadP.ridx_main_v0 (ix2 p q) k = ix2 k q :=
  funext fun a => Fin.ext (by match a with | ⟨0, _⟩ => rfl | ⟨1, _⟩ => rfl)
theorem lidx_v7 (p : Fin 10000) (q : Fin 128) (k : Fin 128) : ReadP.lidx_main_v7 (ix2 p q) k = ix2 p k :=
  funext fun a => Fin.ext (by match a with | ⟨0, _⟩ => rfl | ⟨1, _⟩ => rfl)
theorem ridx_v7 (p : Fin 10000) (q : Fin 128) (k : Fin 128) : ReadP.ridx_main_v7 (ix2 p q) k = ix2 k q :=
  funext fun a => Fin.ext (by match a with | ⟨0, _⟩ => rfl | ⟨1, _⟩ => rfl)
theorem lidx_v12 (p : Fin 10000) (q : Fin 128) (k : Fin 10000) : ReadP.lidx_main_v12 (ix2 p q) k = ix2 p k :=
  funext fun a => Fin.ext (by match a with | ⟨0, _⟩ => rfl | ⟨1, _⟩ => rfl)
theorem ridx_v12 (p : Fin 10000) (q : Fin 128) (k : Fin 10000) : ReadP.ridx_main_v12 (ix2 p q) k = ix2 k q :=
  funext fun a => Fin.ext (by match a with | ⟨0, _⟩ => rfl | ⟨1, _⟩ => rfl)
theorem lidx_v20 (p : Fin 10000) (q : Fin 128) (k : Fin 10000) : ReadP.lidx_main_v20 (ix2 p q) k = ix2 p k :=
  funext fun a => Fin.ext (by match a with | ⟨0, _⟩ => rfl | ⟨1, _⟩ => rfl)
theorem ridx_v20 (p : Fin 10000) (q : Fin 128) (k : Fin 10000) : ReadP.ridx_main_v20 (ix2 p q) k = ix2 k q :=
  funext fun a => Fin.ext (by match a with | ⟨0, _⟩ => rfl | ⟨1, _⟩ => rfl)
theorem lidx_v28 (p : Fin 10000) (q : Fin 128) (k : Fin 10000) : ReadP.lidx_main_v28 (ix2 p q) k = ix2 p k :=
  funext fun a => Fin.ext (by match a with | ⟨0, _⟩ => rfl | ⟨1, _⟩ => rfl)
theorem ridx_v28 (p : Fin 10000) (q : Fin 128) (k : Fin 10000) : ReadP.ridx_main_v28 (ix2 p q) k = ix2 k q :=
  funext fun a => Fin.ext (by match a with | ⟨0, _⟩ => rfl | ⟨1, _⟩ => rfl)
theorem lidx_v35 (p : Fin 10000) (q : Fin 64) (k : Fin 128) : ReadP.lidx_main_v35 (ix2 p q) k = ix2 p k :=
  funext fun a => Fin.ext (by match a with | ⟨0, _⟩ => rfl | ⟨1, _⟩ => rfl)
theorem ridx_v35 (p : Fin 10000) (q : Fin 64) (k : Fin 128) : ReadP.ridx_main_v35 (ix2 p q) k = ix2 k q :=
  funext fun a => Fin.ext (by match a with | ⟨0, _⟩ => rfl | ⟨1, _⟩ => rfl)
/-- The row sum's operand index at row p, coordinate k, is (p, k). -/
theorem idx_c4v7 (p : Fin 10000) (k : Fin 64) : ReadP.idx_main_call4_v7 (ix1 p) k = ix2 p k :=
  funext fun a => Fin.ext (by match a with | ⟨0, _⟩ => rfl | ⟨1, _⟩ => rfl)

/-! ## The row maximum -/

/-- A fold of max from −∞ is at least −∞, so the maximum of −∞ with it is the fold. -/
theorem max_negInf_rowMax {R C : ℕ} (z : Mat R C) (p : Fin R) : max wNegInf (rowMax z p) = rowMax z p :=
  max_eq_right ((Finset.le_fold_max wNegInf).2 (Or.inl le_rfl))

/-- The reduction of a [10000, 64] array along its second axis by the maximum, from the word of −∞, is at row p the
    fold of max over the row's 64 entries: the row's maximum. -/
theorem reduceMax_apply (z : Mat 10000 64) (p : Fin 10000) :
    Host.reduce (FloatOps.maximumf (F := Ideal) (φ := .f32)) z (ReadP.val_main_call4_cst (F := Ideal))
        Gen.reducesTo_S10000x64_S10000_d1 Gen.h_S_ (ix1 p) = rowMax z p := by
  rw [Host.reduce_eq_fold_single (FloatOps.maximumf (F := Ideal) (φ := .f32)) z (ReadP.val_main_call4_cst (F := Ideal))
    Gen.reducesTo_S10000x64_S10000_d1 (by decide) Gen.h_S_ (ix1 p)]
  unfold rowMax
  exact Finset.fold_congr (fun k _ => congrArg z (funext fun a => Fin.ext (by
    match a with | ⟨0, _⟩ => rfl | ⟨1, _⟩ => rfl)))

section
variable (x : Mat 10000 128) (L : Mat 10000 10000) (W1 : Mat 128 128) (b1 d1 : Vec1 128) (dh : Mat 2 128)
  (W2 : Mat 128 64) (b2 : Vec1 64) (d2 : Vec1 128)

/-! ## The first layer: clip ((x − (L·x)·(d1 + 1))·W1 + b1) at zero -/

/-- The first product is L·x. -/
theorem s_v0 : (ReadP.val_main_v0 (F := Ideal) x L : Mat 10000 128) = mm L x := by
  funext i
  obtain ⟨p, q, rfl⟩ : ∃ (p : Fin 10000) (q : Fin 128), i = ix2 p q := ⟨i 0, i 1, eq_ix2 i⟩
  rw [ReadP.val_main_v0_apply, mm_apply]
  simp only [lidx_v0, ridx_v0]

/-- The [128] array d1 plus one, broadcast into every row: column q holds d1 q + 1. -/
theorem s_v4 : (ReadP.val_main_v4 (F := Ideal) d1 : Mat 10000 128) = fun j => d1 (ix1 (j 1)) + w1 := by
  funext i
  obtain ⟨p, q, rfl⟩ : ∃ (p : Fin 10000) (q : Fin 128), i = ix2 p q := ⟨i 0, i 1, eq_ix2 i⟩
  rw [ReadP.val_main_v4_apply, ReadP.val_main_v3_apply, ReadP.val_main_v2_apply, ReadP.val_main_v1_apply,
    ReadP.val_main_cst_apply]
  have e : ReadP.idx_main_v3 (ReadP.idx_main_v4 (ix2 p q)) = ix1 q :=
    funext fun a => Fin.ext (by match a with | ⟨0, _⟩ => rfl)
  rw [e]
  rfl

/-- x − (L·x)·(d1 + 1), column by column. -/
theorem s_v6 : (ReadP.val_main_v6 (F := Ideal) x L d1 : Mat 10000 128) = mixed L x d1 := by
  funext i
  rw [ReadP.val_main_v6_apply, ReadP.val_main_v5_apply, s_v0, s_v4]
  rfl

/-- The second product is (x − (L·x)·(d1 + 1))·W1. -/
theorem s_v7 : (ReadP.val_main_v7 (F := Ideal) x L W1 d1 : Mat 10000 128) = mm (mixed L x d1) W1 := by
  funext i
  obtain ⟨p, q, rfl⟩ : ∃ (p : Fin 10000) (q : Fin 128), i = ix2 p q := ⟨i 0, i 1, eq_ix2 i⟩
  rw [ReadP.val_main_v7_apply, s_v6, mm_apply]
  simp only [lidx_v7, ridx_v7]

/-- The [128] array b1 broadcast into every row. -/
theorem s_v9 : (ReadP.val_main_v9 (F := Ideal) b1 : Mat 10000 128) = fun i => asRow b1 (ix2 0 (i 1)) := by
  funext i
  obtain ⟨p, q, rfl⟩ : ∃ (p : Fin 10000) (q : Fin 128), i = ix2 p q := ⟨i 0, i 1, eq_ix2 i⟩
  rw [ReadP.val_main_v9_apply, ReadP.val_main_v8_apply]
  show b1 _ = b1 _
  exact congrArg b1 (funext fun a => Fin.ext (by match a with | ⟨0, _⟩ => rfl))

/-- The first layer's output. -/
theorem s_v11 : (ReadP.val_main_v11 (F := Ideal) x L W1 b1 d1 : Mat 10000 128) = rH1 x L W1 b1 d1 := by
  funext i
  rw [ReadP.val_main_v11_apply, ReadP.val_main_v10_apply, s_v7, s_v9, ReadP.val_main_call0_v0_apply,
    ReadP.val_main_call0_cst_apply]
  rfl

/-! ## The two hidden layers: clip (h − (L·h)·dh[r]) at zero -/

/-- The second layer's product is L·h1. -/
theorem s_v12 : (ReadP.val_main_v12 (F := Ideal) x L W1 b1 d1 : Mat 10000 128) = mm L (rH1 x L W1 b1 d1) := by
  funext i
  obtain ⟨p, q, rfl⟩ : ∃ (p : Fin 10000) (q : Fin 128), i = ix2 p q := ⟨i 0, i 1, eq_ix2 i⟩
  rw [ReadP.val_main_v12_apply, s_v11, mm_apply]
  simp only [lidx_v12, ridx_v12]

/-- Row 0 of dh, sliced, flattened and broadcast into every row. -/
theorem s_v16 : (ReadP.val_main_v16 (F := Ideal) dh : Mat 10000 128) = fun i => pickRow dh 0 (ix2 0 (i 1)) := by
  funext i
  obtain ⟨p, q, rfl⟩ : ∃ (p : Fin 10000) (q : Fin 128), i = ix2 p q := ⟨i 0, i 1, eq_ix2 i⟩
  rw [ReadP.val_main_v16_apply, ReadP.val_main_v15_apply, ReadP.val_main_v14_apply, ReadP.val_main_v13_apply]
  show dh _ = dh _
  exact congrArg dh (funext fun a => Fin.ext (by
    match a with
    | ⟨0, _⟩ => rfl
    | ⟨1, _⟩ => exact Nat.mod_eq_of_lt q.isLt))

/-- The second layer's output. -/
theorem s_v19 : (ReadP.val_main_v19 (F := Ideal) x L W1 b1 d1 dh : Mat 10000 128) = rH2 x L W1 b1 d1 dh := by
  funext i
  rw [ReadP.val_main_v19_apply, ReadP.val_main_v18_apply, ReadP.val_main_v17_apply, s_v11, s_v12, s_v16,
    ReadP.val_main_call1_v0_apply, ReadP.val_main_call1_cst_apply]
  rfl

/-- The third layer's product is L·h2. -/
theorem s_v20 : (ReadP.val_main_v20 (F := Ideal) x L W1 b1 d1 dh : Mat 10000 128) = mm L (rH2 x L W1 b1 d1 dh) := by
  funext i
  obtain ⟨p, q, rfl⟩ : ∃ (p : Fin 10000) (q : Fin 128), i = ix2 p q := ⟨i 0, i 1, eq_ix2 i⟩
  rw [ReadP.val_main_v20_apply, s_v19, mm_apply]
  simp only [lidx_v20, ridx_v20]

/-- Row 1 of dh, sliced, flattened and broadcast into every row. -/
theorem s_v24 : (ReadP.val_main_v24 (F := Ideal) dh : Mat 10000 128) = fun i => pickRow dh 1 (ix2 0 (i 1)) := by
  funext i
  obtain ⟨p, q, rfl⟩ : ∃ (p : Fin 10000) (q : Fin 128), i = ix2 p q := ⟨i 0, i 1, eq_ix2 i⟩
  rw [ReadP.val_main_v24_apply, ReadP.val_main_v23_apply, ReadP.val_main_v22_apply, ReadP.val_main_v21_apply]
  show dh _ = dh _
  exact congrArg dh (funext fun a => Fin.ext (by
    match a with
    | ⟨0, _⟩ => rfl
    | ⟨1, _⟩ => exact Nat.mod_eq_of_lt q.isLt))

/-- The third layer's output. -/
theorem s_v27 : (ReadP.val_main_v27 (F := Ideal) x L W1 b1 d1 dh : Mat 10000 128) = rH3 x L W1 b1 d1 dh := by
  funext i
  rw [ReadP.val_main_v27_apply, ReadP.val_main_v26_apply, ReadP.val_main_v25_apply, s_v19, s_v20, s_v24,
    ReadP.val_main_call2_v0_apply, ReadP.val_main_call2_cst_apply]
  rfl

/-! ## The last layer before the log-softmax: clip ((h3 − (L·h3)·(d2 + 1))·W2 + b2) at zero -/

/-- The last layer's first product is L·h3. -/
theorem s_v28 : (ReadP.val_main_v28 (F := Ideal) x L W1 b1 d1 dh : Mat 10000 128) = mm L (rH3 x L W1 b1 d1 dh) := by
  funext i
  obtain ⟨p, q, rfl⟩ : ∃ (p : Fin 10000) (q : Fin 128), i = ix2 p q := ⟨i 0, i 1, eq_ix2 i⟩
  rw [ReadP.val_main_v28_apply, s_v27, mm_apply]
  simp only [lidx_v28, ridx_v28]

/-- The [128] array d2 plus one, broadcast into every row: column q holds d2 q + 1. -/
theorem s_v32 : (ReadP.val_main_v32 (F := Ideal) d2 : Mat 10000 128) = fun j => d2 (ix1 (j 1)) + w1 := by
  funext i
  obtain ⟨p, q, rfl⟩ : ∃ (p : Fin 10000) (q : Fin 128), i = ix2 p q := ⟨i 0, i 1, eq_ix2 i⟩
  rw [ReadP.val_main_v32_apply, ReadP.val_main_v31_apply, ReadP.val_main_v30_apply, ReadP.val_main_v29_apply,
    ReadP.val_main_cst_0_apply]
  have e : ReadP.idx_main_v31 (ReadP.idx_main_v32 (ix2 p q)) = ix1 q :=
    funext fun a => Fin.ext (by match a with | ⟨0, _⟩ => rfl)
  rw [e]
  rfl

/-- h3 − (L·h3)·(d2 + 1), column by column. -/
theorem s_v34 : (ReadP.val_main_v34 (F := Ideal) x L W1 b1 d1 dh d2 : Mat 10000 128)
    = mixed L (rH3 x L W1 b1 d1 dh) d2 := by
  funext i
  rw [ReadP.val_main_v34_apply, ReadP.val_main_v33_apply, s_v27, s_v28, s_v32]
  rfl

/-- The last layer's second product is (h3 − (L·h3)·(d2 + 1))·W2. -/
theorem s_v35 : (ReadP.val_main_v35 (F := Ideal) x L W1 b1 d1 dh W2 d2 : Mat 10000 64)
    = mm (mixed L (rH3 x L W1 b1 d1 dh) d2) W2 := by
  funext i
  obtain ⟨p, q, rfl⟩ : ∃ (p : Fin 10000) (q : Fin 64), i = ix2 p q := ⟨i 0, i 1, eq_ix2 i⟩
  rw [ReadP.val_main_v35_apply, s_v34, mm_apply]
  simp only [lidx_v35, ridx_v35]

/-- The [64] array b2 broadcast into every row. -/
theorem s_v37 : (ReadP.val_main_v37 (F := Ideal) b2 : Mat 10000 64) = fun i => asRow b2 (ix2 0 (i 1)) := by
  funext i
  obtain ⟨p, q, rfl⟩ : ∃ (p : Fin 10000) (q : Fin 64), i = ix2 p q := ⟨i 0, i 1, eq_ix2 i⟩
  rw [ReadP.val_main_v37_apply, ReadP.val_main_v36_apply]
  show b2 _ = b2 _
  exact congrArg b2 (funext fun a => Fin.ext (by match a with | ⟨0, _⟩ => rfl))

/-- The array the log-softmax is taken of. -/
theorem s_v39 : (ReadP.val_main_v39 (F := Ideal) x L W1 b1 d1 dh W2 b2 d2 : Mat 10000 64)
    = rZ x L W1 b1 d1 dh W2 b2 d2 := by
  funext i
  rw [ReadP.val_main_v39_apply, ReadP.val_main_v38_apply, s_v35, s_v37, ReadP.val_main_call3_v0_apply,
    ReadP.val_main_call3_cst_apply]
  rfl

/-! ## The log-softmax along rows, grouped (z − M) − log S -/

/-- The row maximum as the reference takes it: the maximum of −∞ and the fold, which is the fold. -/
theorem s_c4v2 : (ReadP.val_main_call4_v2 (F := Ideal) x L W1 b1 d1 dh W2 b2 d2 : Vec1 10000)
    = fun j => rowMax (rZ x L W1 b1 d1 dh W2 b2 d2) (j 0) := by
  funext j
  obtain ⟨p, rfl⟩ : ∃ p : Fin 10000, j = ix1 p := ⟨j 0, eq_ix1 j⟩
  rw [ReadP.val_main_call4_v2_apply, ReadP.val_main_call4_v1_apply, ReadP.val_main_call4_cst_0_apply]
  unfold ReadP.val_main_call4_v0
  rw [s_v39]
  show max wNegInf (Host.reduce _ _ _ _ _ _) = rowMax _ p
  rw [reduceMax_apply]
  exact max_negInf_rowMax _ p

/-- Every entry minus its row's maximum. -/
theorem s_c4v5 : (ReadP.val_main_call4_v5 (F := Ideal) x L W1 b1 d1 dh W2 b2 d2 : Mat 10000 64)
    = fun i => rZ x L W1 b1 d1 dh W2 b2 d2 i - rowMax (rZ x L W1 b1 d1 dh W2 b2 d2) (i 0) := by
  funext i
  obtain ⟨p, q, rfl⟩ : ∃ (p : Fin 10000) (q : Fin 64), i = ix2 p q := ⟨i 0, i 1, eq_ix2 i⟩
  rw [ReadP.val_main_call4_v5_apply, ReadP.val_main_call4_v4_apply, ReadP.val_main_call4_v3_apply, s_v39, s_c4v2]
  rfl

/-- The row's sum of exponentials: the sum's initial value is the word of 0, which is 0. -/
theorem s_c4v7 : (ReadP.val_main_call4_v7 (F := Ideal) x L W1 b1 d1 dh W2 b2 d2 : Vec1 10000)
    = fun j => rowSumExp (rZ x L W1 b1 d1 dh W2 b2 d2) (j 0) := by
  funext j
  obtain ⟨p, rfl⟩ : ∃ p : Fin 10000, j = ix1 p := ⟨j 0, eq_ix1 j⟩
  rw [ReadP.val_main_call4_v7_apply, ReadP.val_main_call4_cst_1_apply, Ideal.ofBits_def, Ideal.ofBits_zero_f32,
    zero_add]
  show _ = ∑ k : Fin 64, _
  refine Finset.sum_congr rfl fun k _ => ?_
  rw [ReadP.val_main_call4_v6_apply, idx_c4v7, s_c4v5]
  rfl

/-- The reference's result array. -/
theorem s_v40 : (ReadP.val_main_v40 (F := Ideal) x L W1 b1 d1 dh W2 b2 d2 : Mat 10000 64)
    = rOut x L W1 b1 d1 dh W2 b2 d2 := by
  funext i
  obtain ⟨p, q, rfl⟩ : ∃ (p : Fin 10000) (q : Fin 64), i = ix2 p q := ⟨i 0, i 1, eq_ix2 i⟩
  rw [ReadP.val_main_v40_apply, ReadP.val_main_call4_v10_apply, ReadP.val_main_call4_v9_apply,
    ReadP.val_main_call4_v8_apply, s_c4v5, s_c4v7]
  rfl

end

/-- The reference run's result term, at the extended reals, is the reference's composite of the nine argument arrays. -/
theorem ref_result (m : (ℓ : Loc nD τ sig) → Buf (Elt Ideal) ℓ) (c : Dev nD) :
    (Cert.ReferenceIdeal.ValueP.res_main_v40 (F := Ideal) m c : Mat 10000 64)
      = rOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [ReadP.val_main_v40_eq]
  exact s_v40 _ _ _ _ _ _ _ _ _

end Cert.AdaGnn.RefValue

end
-- ==== Proof.lean ====
/-
  A four-layer graph network on 10000 nodes, written as five kernel launches, against its plain array program: the
  kernel's result and the reference's are equal as extended reals, entry by entry, whenever every input entry is finite.

  The reference applies the dense operator L to the features and then the weights: relu((x − (L·x)·(d1+1))·W1 + b1), two
  hidden steps h ↦ relu(h − (L·h)·dh_i), then relu((h − (L·h)·(d2+1))·W2 + b2) and the log-softmax of each row. The
  kernel projects first and applies L to the projected features: relu((x·W1 + b1) − L·(x·((d1+1)·W1))), the same hidden
  steps, relu((h·W2 + b2) − L·(h·((d2+1)·W2))), and the log-softmax grouped as z − (log S + M). On real numbers these are
  one function (the distributive law for the two weighted layers, a regrouping of two subtractions for the log-softmax),
  and finite inputs keep every intermediate entry a real number; at an infinite entry the law fails, which is where the
  precondition is used. A change of float format is the identity on the extended reals, so the kernel's half-width
  copies of L and of the features are those arrays themselves.

  The kernel's run names its result array at the last of the program's eight stretches; that array is walked back, region
  by region, to the kernel's composite of the launch arrays. The reference's run is read one operation at a time to the
  reference's composite. The kernel's idealization rewrites no operation, so nothing is owed for it.
-/
import proofs.«174973_g47665547051069_cont_8to1c4_396_5_alg».proof.Defs
import proofs.«174973_g47665547051069_cont_8to1c4_396_5_alg».proof.Proof.Gen.Kernel
import proofs.«174973_g47665547051069_cont_8to1c4_396_5_alg».proof.Proof.Gen.Kernel.Skeleton
import proofs.«174973_g47665547051069_cont_8to1c4_396_5_alg».proof.Proof.Gen.Kernel.Launch
import proofs.«174973_g47665547051069_cont_8to1c4_396_5_alg».proof.Proof.Gen.Kernel.Points
import proofs.«174973_g47665547051069_cont_8to1c4_396_5_alg».proof.Proof.Gen.Kernel.Frame
import proofs.«174973_g47665547051069_cont_8to1c4_396_5_alg».proof.Proof.Gen.KernelIdeal
import proofs.«174973_g47665547051069_cont_8to1c4_396_5_alg».proof.Proof.Gen.KernelIdeal.Skeleton
import proofs.«174973_g47665547051069_cont_8to1c4_396_5_alg».proof.Proof.Gen.KernelIdeal.Launch
import proofs.«174973_g47665547051069_cont_8to1c4_396_5_alg».proof.Proof.Gen.KernelIdeal.Points
import proofs.«174973_g47665547051069_cont_8to1c4_396_5_alg».proof.Proof.Gen.KernelIdeal.Frame
import proofs.«174973_g47665547051069_cont_8to1c4_396_5_alg».proof.Proof.Gen.ReferenceIdeal
import proofs.«174973_g47665547051069_cont_8to1c4_396_5_alg».proof.Proof.Gen.Pre_finite_inputs
import proofs.«174973_g47665547051069_cont_8to1c4_396_5_alg».proof.Proof.Layers
import proofs.«174973_g47665547051069_cont_8to1c4_396_5_alg».proof.Proof.Launch
import proofs.«174973_g47665547051069_cont_8to1c4_396_5_alg».proof.Proof.Chain
import proofs.«174973_g47665547051069_cont_8to1c4_396_5_alg».proof.Proof.Finite
import proofs.«174973_g47665547051069_cont_8to1c4_396_5_alg».proof.Proof.Algebra
import proofs.«174973_g47665547051069_cont_8to1c4_396_5_alg».proof.Proof.RefRun
import proofs.«174973_g47665547051069_cont_8to1c4_396_5_alg».proof.Proof.RefValue
import Idealize.ShloMosaic.Adequacy
import Idealize.ShloMosaic.Init

noncomputable section

namespace Cert.Proof

open Idealize.ShloMosaic Idealize.ShloMosaic.TcCoe Idealize.SL.Sem

/-- Both idealized programs, run from memories that agree on the nine arguments, end with the reference's composite of
    those arguments in their result arrays: the kernel's by its walked-back run and the agreement of the two composites on
    real inputs, the reference's by its run read operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.AdaGnn.rOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨?_, (h c).2⟩) (Cert.KernelIdeal.GenP.run_named (F := Ideal) m ρ)
    obtain ⟨h0, h1, h2, h3, h4, h5, h6, h7, h8⟩ := Cert.AdaGnn.Finite.reals_of_pre m hpre c
    exact ((h c).1.trans (Cert.AdaGnn.Chain.W8_result m ρ c)).trans
      (Cert.AdaGnn.kOut_eq_rOut _ _ _ _ _ _ _ _ _ h0 h1 h2 h3 h4 h5 h6 h7 h8)
  · refine (θ_run Cert.ReferenceIdeal.defs _ _).mono (fun r h c => ⟨?_, (h c).2⟩) (Cert.ReferenceIdeal.ValueP.run (F := Ideal) m' ρ')
    obtain ⟨a0, a1, a2, a3, a4, a5, a6, a7, a8⟩ := hagree c
    rw [(h c).1, Cert.AdaGnn.RefValue.ref_result m' c, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
